-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S2048x256 : Shape := ⟨2, ![2048, 256]⟩
abbrev S1024x256 : Shape := ⟨2, ![1024, 256]⟩
abbrev S2048x1 : Shape := ⟨2, ![2048, 1]⟩
abbrev S256x1024 : Shape := ⟨2, ![256, 1024]⟩
abbrev S2048x1024 : Shape := ⟨2, ![2048, 1024]⟩
abbrev S2048 : Shape := ⟨1, ![2048]⟩
abbrev S8192 : Shape := ⟨1, ![8192]⟩

abbrev nBuf : Space → Nat
  | .hbm => 45
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x1, .f32⟩
  | .hbm, ⟨23, _⟩ => ⟨S4096, .f32⟩
  | .hbm, ⟨24, _⟩ => ⟨S4096x1, .f32⟩
  | .hbm, ⟨25, _⟩ => ⟨S4096, .f32⟩
  | .hbm, ⟨26, _⟩ => ⟨S4096x256, .f32⟩
  | .hbm, ⟨27, _⟩ => ⟨S_, .f32⟩
  | .hbm, ⟨28, _⟩ => ⟨S4096, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x256, .f32⟩
  | .local _ .vmem, ⟨8, _⟩ => ⟨S2048x256, .f32⟩
  | .local _ .vmem, ⟨9, _⟩ => ⟨S1024x256, .f32⟩
  | .local _ .vmem, ⟨10, _⟩ => ⟨S1024x256, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  reduces_S2048x1024_S2048 : S2048x1024.Reduces [1] S2048
  shapeCasts_S2048_S2048x1 : S2048.ShapeCasts S2048x1
  shapeCasts_S4096x1_S4096 : S4096x1.ShapeCasts S4096
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .f32 = 32 ∨ (Rect.block (s := S4096x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .f32 = 32 ∨ (Rect.block (s := S4096x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .f32 = 32 ∨ (Rect.block (s := S4096x1) S2048x1.size (cc1_transform_2 i) (hinb1_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v4) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 65
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S8192, .f32⟩
  | .hbm, ⟨29, _⟩ => ⟨S8192, .i32⟩
  | .hbm, ⟨30, _⟩ => ⟨S8192x1, .i32⟩
  | .hbm, ⟨31, _⟩ => ⟨S_, .i32⟩
  | .hbm, ⟨32, _⟩ => ⟨S8192x1, .i32⟩
  | .hbm, ⟨33, _⟩ => ⟨S8192x1, .i1⟩
  | .hbm, ⟨34, _⟩ => ⟨S1x8192, .i32⟩
  | .hbm, ⟨35, _⟩ => ⟨S_, .i32⟩
  | .hbm, ⟨36, _⟩ => ⟨S1x8192, .i32⟩
  | .hbm, ⟨37, _⟩ => ⟨S1x8192, .i1⟩
  | .hbm, ⟨38, _⟩ => ⟨S8192x8192, .i1⟩
  | .hbm, ⟨39, _⟩ => ⟨S8192x8192, .i1⟩
  | .hbm, ⟨40, _⟩ => ⟨S8192x8192, .i1⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  concatenates_S4096_S4096_S8192_d0 : Shape.Concatenates [S4096, S4096] S8192 0
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Body.lean ====
/-
  The kernel body of each of the two cross-sum regions, as three triples: on whole staging buffers holding a block `a`
  of the row operand, a block `b` of the column operand, an output block and the scratch column, the body runs to the end
  and leaves the inputs as they were and the scratch one accumulation step further (from the zero column at the first tile
  of a row of the grid, from what it held otherwise); the output block is left untouched except at the last tile of a
  row, where it receives the scratch's new contents. Stated at any float instance.
-/
import proofs.«139026_j64518998721097_1_alg».proof.Proof.Gen.Kernel.Launch
import proofs.«139026_j64518998721097_1_alg».proof.Proof.Gen.Kernel.Skeleton
import proofs.«139026_j64518998721097_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle of rank 2 are zero. -/
theorem hz2 : (![0, 0] : Fin 2 → ℕ) = fun _ => 0 := by funext x; fin_cases x <;> rfl

/-! ## Region 0: the kernel body's three control cases

The body branches twice on the grid's second coordinate `j`: it zeroes the scratch column where `j = 0`, always adds the
tile's row sums into it, and copies it into the output block where `j = 3`. Four tiles make a row of the grid, so the two
conditions never hold together, and three cases remain. -/

/-- `j = 0`: the first branch is taken. -/
abbrev cond0_0 (i : grid0.Coords) : Prop := (Scalar.cmpi .ne (Scalar.extui (Scalar.cmpi .eq (BitVec.ofNat 32 (i 1).val) 0#32)) 0#32) = 1#1
/-- `j = 3`: the second branch is taken. -/
abbrev cond0_1 (i : grid0.Coords) : Prop := k0_cond2 i = 1#1

set_option maxHeartbeats 1000000 in
/-- First tile of a row: the scratch, whatever it held, ends at one step from the zero column; the output block is not touched. -/
theorem run0_first (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : cond0_0 i) (h2 : ¬cond0_1 i)
    (a : Vec F S2048x256 .f32) (b : Vec F S1024x256 .f32) (o : Vec F S2048x1 .f32) (E : Set ℕ) (K : PUnit → sProp 𝕄) :
    iprop(owns (c : Thread nD τ) arg2 fullShare a ∗ owns (c : Thread nD τ) arg3 fullShare b ∗ owns (c : Thread nD τ) arg4 fullShare o
        ∗ (∃ d, owns (c : Thread nD τ) arg5 fullShare d)
        ∗ (iprop(owns (c : Thread nD τ) arg2 fullShare a ∗ owns (c : Thread nD τ) arg3 fullShare b ∗ owns (c : Thread nD τ) arg4 fullShare o
            ∗ owns (c : Thread nD τ) arg5 fullShare (k0_pay2 a b k0_pay1)) -∗ K ⟨⟩))
      ⊢ wp frame (wpE (defs₀ (F := F)) Variants.none c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, View.ld_unit_zero (S := S2048x256) hz2, View.ld_unit_zero (S := S1024x256) hz2, View.ld_unit_zero (S := S2048x1) hz2, View.readCov_unit_zero (S := S2048x1) _ hz2]

set_option maxHeartbeats 1000000 in
/-- A middle tile: one more step on what the scratch held; the output block is not touched. -/
theorem run0_mid (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : ¬cond0_0 i) (h2 : ¬cond0_1 i)
    (a : Vec F S2048x256 .f32) (b : Vec F S1024x256 .f32) (o s : Vec F S2048x1 .f32) (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare o
            ∗ owns (c : Thread nD τ) arg5 fullShare (k0_pay2 a b s)) -∗ K ⟨⟩))
      ⊢ wp frame (wpE (defs₀ (F := F)) Variants.none c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, harg5.read_unread, View.ld_unit_zero (S := S2048x256) hz2, View.ld_unit_zero (S := S1024x256) hz2, View.ld_unit_zero (S := S2048x1) hz2]

set_option maxHeartbeats 1000000 in
/-- Last tile of a row: one more step on what the scratch held, and the output block, whatever it held, ends at the same column. -/
theorem run0_last (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : ¬cond0_0 i) (h2 : cond0_1 i)
    (a : Vec F S2048x256 .f32) (b : Vec F S1024x256 .f32) (s : Vec F S2048x1 .f32) (E : Set ℕ) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare s
        ∗ (iprop(owns (c : Thread nD τ) arg2 fullShare a ∗ owns (c : Thread nD τ) arg3 fullShare b ∗ owns (c : Thread nD τ) arg4 fullShare (k0_pay2 a b s)
            ∗ owns (c : Thread nD τ) arg5 fullShare (k0_pay2 a b s)) -∗ K ⟨⟩))
      ⊢ wp frame (wpE (defs₀ (F := F)) Variants.none c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (fun y => ⟨_, List.mem_cons_self, View.mem_set_unit_zero hz2 inb_S2048x1_S2048x1_0_0 y⟩), View.canon_cons_unit_zero hz2]
    rw [View.readCov_eq_canon_ld _ _ _ (fun y => ⟨_, List.mem_cons_self, View.mem_set_unit_zero hz2 inb_S2048x1_S2048x1_0_0 y⟩), View.canon_cons_unit_zero hz2]
    simp only [View.readAt_eq_ld, harg2.read_unread, harg3.read_unread, harg5.read_unread, View.ld_unit_zero (S := S2048x256) hz2, View.ld_unit_zero (S := S1024x256) hz2, View.ld_unit_zero (S := S2048x1) hz2]
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, harg5.read_unread, View.ld_unit_zero (S := S2048x256) hz2, View.ld_unit_zero (S := S1024x256) hz2, View.ld_unit_zero (S := S2048x1) hz2]

/-! ## Region 1: the kernel body's three control cases

The body branches twice on the grid's second coordinate `j`: it zeroes the scratch column where `j = 0`, always adds the
tile's row sums into it, and copies it into the output block where `j = 3`. Four tiles make a row of the grid, so the two
conditions never hold together, and three cases remain. -/

/-- `j = 0`: the first branch is taken. -/
abbrev cond1_0 (i : grid1.Coords) : Prop := (Scalar.cmpi .ne (Scalar.extui (Scalar.cmpi .eq (BitVec.ofNat 32 (i 1).val) 0#32)) 0#32) = 1#1
/-- `j = 3`: the second branch is taken. -/
abbrev cond1_1 (i : grid1.Coords) : Prop := k1_cond2 i = 1#1

set_option maxHeartbeats 1000000 in
/-- First tile of a row: the scratch, whatever it held, ends at one step from the zero column; the output block is not touched. -/
theorem run1_first (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : cond1_0 i) (h2 : ¬cond1_1 i)
    (a : Vec F S2048x256 .f32) (b : Vec F S1024x256 .f32) (o : Vec F S2048x1 .f32) (E : Set ℕ) (K : PUnit → sProp 𝕄) :
    iprop(owns (c : Thread nD τ) arg2 fullShare a ∗ owns (c : Thread nD τ) arg3 fullShare b ∗ owns (c : Thread nD τ) arg4 fullShare o
        ∗ (∃ d, owns (c : Thread nD τ) arg5 fullShare d)
        ∗ (iprop(owns (c : Thread nD τ) arg2 fullShare a ∗ owns (c : Thread nD τ) arg3 fullShare b ∗ owns (c : Thread nD τ) arg4 fullShare o
            ∗ owns (c : Thread nD τ) arg5 fullShare (k1_pay2 a b k1_pay1)) -∗ K ⟨⟩))
      ⊢ wp frame (wpE (defs₀ (F := F)) Variants.none c none) E (cc1__sum_kernel i arg2 harg2 arg3 harg3 arg4 harg4 arg5 harg5) K := by
  simp only [cc1__sum_kernel_eq_skeleton]; unfold cc1__sum_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, View.ld_unit_zero (S := S2048x256) hz2, View.ld_unit_zero (S := S1024x256) hz2, View.ld_unit_zero (S := S2048x1) hz2, View.readCov_unit_zero (S := S2048x1) _ hz2]

set_option maxHeartbeats 1000000 in
/-- A middle tile: one more step on what the scratch held; the output block is not touched. -/
theorem run1_mid (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : ¬cond1_0 i) (h2 : ¬cond1_1 i)
    (a : Vec F S2048x256 .f32) (b : Vec F S1024x256 .f32) (o s : Vec F S2048x1 .f32) (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare o
            ∗ owns (c : Thread nD τ) arg5 fullShare (k1_pay2 a b s)) -∗ K ⟨⟩))
      ⊢ wp frame (wpE (defs₀ (F := F)) Variants.none c none) E (cc1__sum_kernel i arg2 harg2 arg3 harg3 arg4 harg4 arg5 harg5) K := by
  simp only [cc1__sum_kernel_eq_skeleton]; unfold cc1__sum_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, harg5.read_unread, View.ld_unit_zero (S := S2048x256) hz2, View.ld_unit_zero (S := S1024x256) hz2, View.ld_unit_zero (S := S2048x1) hz2]

set_option maxHeartbeats 1000000 in
/-- Last tile of a row: one more step on what the scratch held, and the output block, whatever it held, ends at the same column. -/
theorem run1_last (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : ¬cond1_0 i) (h2 : cond1_1 i)
    (a : Vec F S2048x256 .f32) (b : Vec F S1024x256 .f32) (s : Vec F S2048x1 .f32) (E : Set ℕ) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare s
        ∗ (iprop(owns (c : Thread nD τ) arg2 fullShare a ∗ owns (c : Thread nD τ) arg3 fullShare b ∗ owns (c : Thread nD τ) arg4 fullShare (k1_pay2 a b s)
            ∗ owns (c : Thread nD τ) arg5 fullShare (k1_pay2 a b s)) -∗ K ⟨⟩))
      ⊢ wp frame (wpE (defs₀ (F := F)) Variants.none c none) E (cc1__sum_kernel i arg2 harg2 arg3 harg3 arg4 harg4 arg5 harg5) K := by
  simp only [cc1__sum_kernel_eq_skeleton]; unfold cc1__sum_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (fun y => ⟨_, List.mem_cons_self, View.mem_set_unit_zero hz2 inb_S2048x1_S2048x1_0_0 y⟩), View.canon_cons_unit_zero hz2]
    rw [View.readCov_eq_canon_ld _ _ _ (fun y => ⟨_, List.mem_cons_self, View.mem_set_unit_zero hz2 inb_S2048x1_S2048x1_0_0 y⟩), View.canon_cons_unit_zero hz2]
    simp only [View.readAt_eq_ld, harg2.read_unread, harg3.read_unread, harg5.read_unread, View.ld_unit_zero (S := S2048x256) hz2, View.ld_unit_zero (S := S1024x256) hz2, View.ld_unit_zero (S := S2048x1) hz2]
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, harg5.read_unread, View.ld_unit_zero (S := S2048x256) hz2, View.ld_unit_zero (S := S1024x256) hz2, View.ld_unit_zero (S := S2048x1) hz2]

end Cert.Kernel.Hand

end
-- ==== Proof.K.Data.lean ====
/-
  The proof data of the two cross-sum regions, at any float instance and at any contents `V` the region is entered from:
  the blocks of the operands at a grid point, the scratch column's contents point by point (`acc`), the region invariant
  that carries them from one point to the next, and the body obligation — by cases on the point's residue mod 4, each
  case one of the three triples of the body.
-/
import proofs.«139026_j64518998721097_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0

The grid is 2 × 4: point `t` works on row block `t / 4` of the first operand and on column tile `t % 4` of the second.
The scratch column is reset at the points with `t % 4 = 0`, receives one more tile's row sums at every point, and is
copied to the output block — which the pipeline then writes back — at the points with `t % 4 = 3`. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row operand's block and the column operand's tile at point `t`, at their literal shapes. -/
abbrev ablk0 (c : Dev nD) (t : Fin cfg0.N) : Vec F S2048x256 .f32 := iblk0 V c 0 t
abbrev bblk0 (c : Dev nD) (t : Fin cfg0.N) : Vec F S1024x256 .f32 := iblk0 V c 1 t

/-- THE ACCUMULATION: the scratch column after the body at point `n` — one step from the zero column where a row of the
    grid begins, one step from what the point before left otherwise. -/
def acc0 (c : Dev nD) : (n : ℕ) → n < cfg0.N → Vec F S2048x1 .f32
  | 0, h => k0_pay2 (ablk0 V c ⟨0, h⟩) (bblk0 V c ⟨0, h⟩) k0_pay1
  | n + 1, h =>
    if (n + 1) % 4 = 0 then k0_pay2 (ablk0 V c ⟨n + 1, h⟩) (bblk0 V c ⟨n + 1, h⟩) k0_pay1
    else k0_pay2 (ablk0 V c ⟨n + 1, h⟩) (bblk0 V c ⟨n + 1, h⟩) (acc0 c n (Nat.lt_of_succ_lt h))

theorem acc0_first (c : Dev nD) (t : Fin cfg0.N) (h : t.val % 4 = 0) :
    acc0 V c t.val t.isLt = k0_pay2 (ablk0 V c t) (bblk0 V c t) k0_pay1 := by
  obtain ⟨n, hn⟩ := t
  cases n with
  | zero => rfl
  | succ n => exact if_pos h

theorem acc0_next (c : Dev nD) (t : Fin cfg0.N) (h : ¬t.val % 4 = 0) :
    acc0 V c t.val t.isLt
      = k0_pay2 (ablk0 V c t) (bblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The branch conditions and the output window's idle points, over the grid -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- Where the body does not store into the output block the window is idle, -/
theorem idle0_2 : ∀ t : Fin cfg0.N, ¬t.val % 4 = 3 → cfg0.idle 2 (grid0.coords t) = true :=
  (by decide +kernel : ∀ t : Fin grid0.N, ¬t.val % 4 = 3 → cfg0.idle 2 (grid0.coords t) = true)
/-- and live where it does. -/
theorem live0_2 : ∀ t : Fin cfg0.N, t.val % 4 = 3 → cfg0.idle 2 (grid0.coords t) = false :=
  (by decide +kernel : ∀ t : Fin grid0.N, t.val % 4 = 3 → cfg0.idle 2 (grid0.coords t) = false)
theorem noflush0_2 (t : Fin cfg0.N) (h : ¬t.val % 4 = 3) : (cfg0.win 2).flush t = false :=
  Bool.eq_false_iff.mpr fun hf => h ((flush0_2 t).mp hf)

/-! ## The region invariant -/

/-- The scratch column, a whole scoped buffer of the kernel's own. -/
abbrev scM0 : Memref sig .tc .vmem S2048x1 .f32 := Memref.whole cc0_scratch0

/-- The core's other scoped buffers that this region does not stage (the other region's staging buffers and scratch), each
    at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's invariant with the scratch column named: -/
theorem PhiA0_open (c : Dev nD) :
    (Pipeline.ΦA spec0 c : sProp 𝕄) ⊢ iprop(((∃ d, owns (c : Thread nD τ) scM0 fullShare d) ∗ rest0 c) ∗ ∃ r, prngReg c r) := by
  unfold Pipeline.ΦA rest0; rw [scopedRest0_eq]; simp only [scM0, owns_whole]
  iintro ⟨⟨A, B1, B2, B3, B4, B5, B6, B7⟩, Hg⟩
  isplitl [A B1 B2 B3 B4 B5 B6 B7]
  · isplitl [A]; · iexact A
    isplitl [B1]; · iexact B1
    isplitl [B2]; · iexact B2
    isplitl [B3]; · iexact B3
    isplitl [B4]; · iexact B4
    isplitl [B5]; · iexact B5
    isplitl [B6]; · iexact B6
    iexact B7
  iexact Hg

/-- and back. -/
theorem PhiA0_close (c : Dev nD) :
    iprop(((∃ d, owns (c : Thread nD τ) scM0 fullShare d) ∗ rest0 c) ∗ ∃ r, prngReg c r) ⊢ (Pipeline.ΦA spec0 c : sProp 𝕄) := by
  unfold Pipeline.ΦA rest0; rw [scopedRest0_eq]; simp only [scM0, owns_whole]
  iintro ⟨⟨A, B1, B2, B3, B4, B5, B6, B7⟩, Hg⟩
  isplitl [A B1 B2 B3 B4 B5 B6 B7]
  · isplitl [A]; · iexact A
    isplitl [B1]; · iexact B1
    isplitl [B2]; · iexact B2
    isplitl [B3]; · iexact B3
    isplitl [B4]; · iexact B4
    isplitl [B5]; · iexact B5
    isplitl [B6]; · iexact B6
    iexact B7
  iexact Hg

/-- The invariant before position `n`: before the first point the class's (every scoped buffer at anything); afterwards the
    scratch column at what the point before left in it, the other scoped buffers at anything, the generator register at
    some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ ∃ r, prngReg c r)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ ∃ r, prngReg c r) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ ∃ r, prngReg c r) := by
  cases n with
  | zero => exact absurd rfl hz
  | succ n => rfl

/-! ## The proof data -/

/-- The pipeline's proof data on core `c`: the arrays as the region finds them; after the body each input's buffer at its
    block and the output's at the scratch column's contents (consulted only where the block is written back); the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's current staging buffer holds its block at every point, fetched there or not: where it is not fetched its
    index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem leaves0_0 (c : Dev nD) (t : Fin cfg0.N) :
    (dat0 V c).leavesExact 0 t = owns (c : Thread nD τ) (st0_0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (st0_1 t) fullShare (iblk0 V c 1 t) := by
  unfold Dat.leavesExact; rw [show cfg0.idle 1 (cfg0.grid.coords t) = false from rfl, after0_1]
theorem leaves0_2_live (c : Dev nD) (t : Fin cfg0.N) (h : t.val % 4 = 3) :
    (dat0 V c).leavesExact 2 t = owns (c : Thread nD τ) (st0_2 t) fullShare (acc0 V c t.val t.isLt) := by
  unfold Dat.leavesExact; rw [live0_2 t h, after0_2]

set_option maxHeartbeats 2000000 in
/-- The body at any point. The input buffers hold their blocks; the point's residue mod 4 says which of the three cases it is
    in; the invariant hands the body the scratch at what the point before left (at anything where a row of the grid begins) and
    takes it back one step further; an idle output block goes back as it came; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, leaves0_0, leaves0_1, Phi0_castSucc]
  have hN : t.val < 8 := lt_of_lt_of_eq t.isLt (show cfg0.N = 8 from N_0)
  by_cases h0 : t.val % 4 = 0
  · -- the first tile of a row
    have h3 : ¬t.val % 4 = 3 := by omega
    rw [Dat.leavesExact_idle (dat0 V c) 2 t (idle0_2 t h3) (noflush0_2 t h3), acc0_first V c t h0]
    by_cases hz : t.val = 0
    · rw [PhiS0_zero V c _ _ hz]
      iintro ⟨HΦ, Ho, ⟨%d0, H0⟩, ⟨%d1, H1⟩, ⟨%d2, H2⟩⟩
      ihave HΦ' := (PhiA0_open c) $$ HΦ
      icases HΦ' with ⟨⟨HS, Hrest⟩, Hg⟩
      iapply (run0_first c (grid0.coords t) _ _ _ _ _ _ _ _ ((hcond0_0 t).mpr h0) (fun h => h3 ((hcond0_1 t).mp h)) (ablk0 V c t) (bblk0 V c t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS0_pos V c _ _ hz]
      iintro ⟨⟨⟨HS, Hrest⟩, Hg⟩, Ho, ⟨%d0, H0⟩, ⟨%d1, H1⟩, ⟨%d2, H2⟩⟩
      iapply (run0_first c (grid0.coords t) _ _ _ _ _ _ _ _ ((hcond0_0 t).mpr h0) (fun h => h3 ((hcond0_1 t).mp h)) (ablk0 V c t) (bblk0 V c t) _ Set.univ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS0_pos V c _ _ hz, acc0_next V c t h0]
    by_cases h3 : t.val % 4 = 3
    · -- the last tile of a row
      rw [leaves0_2_live V c t h3, acc0_next V c t h0]
      iintro ⟨⟨⟨HS, Hrest⟩, Hg⟩, Ho, ⟨%d0, H0⟩, ⟨%d1, H1⟩, ⟨%d2, H2⟩⟩
      iapply (run0_last c (grid0.coords t) _ _ _ _ _ _ _ _ (fun h => h0 ((hcond0_0 t).mp h)) ((hcond0_1 t).mpr h3) (ablk0 V c t) (bblk0 V c t) _ Set.univ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · -- a middle tile
      rw [Dat.leavesExact_idle (dat0 V c) 2 t (idle0_2 t h3) (noflush0_2 t h3)]
      iintro ⟨⟨⟨HS, Hrest⟩, Hg⟩, Ho, ⟨%d0, H0⟩, ⟨%d1, H1⟩, ⟨%d2, H2⟩⟩
      iapply (run0_mid c (grid0.coords t) _ _ _ _ _ _ _ _ (fun h => h0 ((hcond0_0 t).mp h)) (fun h => h3 ((hcond0_1 t).mp h)) (ablk0 V c t) (bblk0 V c t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega)]
  refine .trans ?_ (PhiA0_close c)
  iintro ⟨⟨HS, Hrest⟩, Hg⟩
  isplitl [HS Hrest]
  · isplitl [HS]; · iexists _; iexact HS
    iexact Hrest
  iexact Hg

end Region0

/-! # Region 1

The grid is 2 × 4: point `t` works on row block `t / 4` of the first operand and on column tile `t % 4` of the second.
The scratch column is reset at the points with `t % 4 = 0`, receives one more tile's row sums at every point, and is
copied to the output block — which the pipeline then writes back — at the points with `t % 4 = 3`. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row operand's block and the column operand's tile at point `t`, at their literal shapes. -/
abbrev ablk1 (c : Dev nD) (t : Fin cfg1.N) : Vec F S2048x256 .f32 := iblk1 V c 0 t
abbrev bblk1 (c : Dev nD) (t : Fin cfg1.N) : Vec F S1024x256 .f32 := iblk1 V c 1 t

/-- THE ACCUMULATION: the scratch column after the body at point `n` — one step from the zero column where a row of the
    grid begins, one step from what the point before left otherwise. -/
def acc1 (c : Dev nD) : (n : ℕ) → n < cfg1.N → Vec F S2048x1 .f32
  | 0, h => k1_pay2 (ablk1 V c ⟨0, h⟩) (bblk1 V c ⟨0, h⟩) k1_pay1
  | n + 1, h =>
    if (n + 1) % 4 = 0 then k1_pay2 (ablk1 V c ⟨n + 1, h⟩) (bblk1 V c ⟨n + 1, h⟩) k1_pay1
    else k1_pay2 (ablk1 V c ⟨n + 1, h⟩) (bblk1 V c ⟨n + 1, h⟩) (acc1 c n (Nat.lt_of_succ_lt h))

theorem acc1_first (c : Dev nD) (t : Fin cfg1.N) (h : t.val % 4 = 0) :
    acc1 V c t.val t.isLt = k1_pay2 (ablk1 V c t) (bblk1 V c t) k1_pay1 := by
  obtain ⟨n, hn⟩ := t
  cases n with
  | zero => rfl
  | succ n => exact if_pos h

theorem acc1_next (c : Dev nD) (t : Fin cfg1.N) (h : ¬t.val % 4 = 0) :
    acc1 V c t.val t.isLt
      = k1_pay2 (ablk1 V c t) (bblk1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The branch conditions and the output window's idle points, over the grid -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
/-- Where the body does not store into the output block the window is idle, -/
theorem idle1_2 : ∀ t : Fin cfg1.N, ¬t.val % 4 = 3 → cfg1.idle 2 (grid1.coords t) = true :=
  (by decide +kernel : ∀ t : Fin grid1.N, ¬t.val % 4 = 3 → cfg1.idle 2 (grid1.coords t) = true)
/-- and live where it does. -/
theorem live1_2 : ∀ t : Fin cfg1.N, t.val % 4 = 3 → cfg1.idle 2 (grid1.coords t) = false :=
  (by decide +kernel : ∀ t : Fin grid1.N, t.val % 4 = 3 → cfg1.idle 2 (grid1.coords t) = false)
theorem noflush1_2 (t : Fin cfg1.N) (h : ¬t.val % 4 = 3) : (cfg1.win 2).flush t = false :=
  Bool.eq_false_iff.mpr fun hf => h ((flush1_2 t).mp hf)

/-! ## The region invariant -/

/-- The scratch column, a whole scoped buffer of the kernel's own. -/
abbrev scM1 : Memref sig .tc .vmem S2048x1 .f32 := Memref.whole cc1_scratch0

/-- The core's other scoped buffers that this region does not stage (the other region's staging buffers and scratch), each
    at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class's invariant with the scratch column named: -/
theorem PhiA1_open (c : Dev nD) :
    (Pipeline.ΦA spec1 c : sProp 𝕄) ⊢ iprop(((∃ d, owns (c : Thread nD τ) scM1 fullShare d) ∗ rest1 c) ∗ ∃ r, prngReg c r) := by
  unfold Pipeline.ΦA rest1; rw [scopedRest1_eq]; simp only [scM1, owns_whole]
  iintro ⟨⟨B1, B2, B3, B4, B5, B6, B7, A⟩, Hg⟩
  isplitl [A B1 B2 B3 B4 B5 B6 B7]
  · isplitl [A]; · iexact A
    isplitl [B1]; · iexact B1
    isplitl [B2]; · iexact B2
    isplitl [B3]; · iexact B3
    isplitl [B4]; · iexact B4
    isplitl [B5]; · iexact B5
    isplitl [B6]; · iexact B6
    iexact B7
  iexact Hg

/-- and back. -/
theorem PhiA1_close (c : Dev nD) :
    iprop(((∃ d, owns (c : Thread nD τ) scM1 fullShare d) ∗ rest1 c) ∗ ∃ r, prngReg c r) ⊢ (Pipeline.ΦA spec1 c : sProp 𝕄) := by
  unfold Pipeline.ΦA rest1; rw [scopedRest1_eq]; simp only [scM1, owns_whole]
  iintro ⟨⟨A, B1, B2, B3, B4, B5, B6, B7⟩, Hg⟩
  isplitl [A B1 B2 B3 B4 B5 B6 B7]
  · isplitl [B1]; · iexact B1
    isplitl [B2]; · iexact B2
    isplitl [B3]; · iexact B3
    isplitl [B4]; · iexact B4
    isplitl [B5]; · iexact B5
    isplitl [B6]; · iexact B6
    isplitl [B7]; · iexact B7
    iexact A
  iexact Hg

/-- The invariant before position `n`: before the first point the class's (every scoped buffer at anything); afterwards the
    scratch column at what the point before left in it, the other scoped buffers at anything, the generator register at
    some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ ∃ r, prngReg c r)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ ∃ r, prngReg c r) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ ∃ r, prngReg c r) := by
  cases n with
  | zero => exact absurd rfl hz
  | succ n => rfl

/-! ## The proof data -/

/-- The pipeline's proof data on core `c`: the arrays as the region finds them; after the body each input's buffer at its
    block and the output's at the scratch column's contents (consulted only where the block is written back); the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its block at every point, fetched there or not: where it is not fetched its
    index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2_live (c : Dev nD) (t : Fin cfg1.N) (h : t.val % 4 = 3) :
    (dat1 V c).leavesExact 2 t = owns (c : Thread nD τ) (st1_2 t) fullShare (acc1 V c t.val t.isLt) := by
  unfold Dat.leavesExact; rw [live1_2 t h, after1_2]

set_option maxHeartbeats 2000000 in
/-- The body at any point. The input buffers hold their blocks; the point's residue mod 4 says which of the three cases it is
    in; the invariant hands the body the scratch at what the point before left (at anything where a row of the grid begins) and
    takes it back one step further; an idle output block goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, leaves1_0, leaves1_1, Phi1_castSucc]
  have hN : t.val < 8 := lt_of_lt_of_eq t.isLt (show cfg1.N = 8 from N_1)
  by_cases h0 : t.val % 4 = 0
  · -- the first tile of a row
    have h3 : ¬t.val % 4 = 3 := by omega
    rw [Dat.leavesExact_idle (dat1 V c) 2 t (idle1_2 t h3) (noflush1_2 t h3), acc1_first V c t h0]
    by_cases hz : t.val = 0
    · rw [PhiS1_zero V c _ _ hz]
      iintro ⟨HΦ, Ho, ⟨%d0, H0⟩, ⟨%d1, H1⟩, ⟨%d2, H2⟩⟩
      ihave HΦ' := (PhiA1_open c) $$ HΦ
      icases HΦ' with ⟨⟨HS, Hrest⟩, Hg⟩
      iapply (run1_first c (grid1.coords t) _ _ _ _ _ _ _ _ ((hcond1_0 t).mpr h0) (fun h => h3 ((hcond1_1 t).mp h)) (ablk1 V c t) (bblk1 V c t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS1_pos V c _ _ hz]
      iintro ⟨⟨⟨HS, Hrest⟩, Hg⟩, Ho, ⟨%d0, H0⟩, ⟨%d1, H1⟩, ⟨%d2, H2⟩⟩
      iapply (run1_first c (grid1.coords t) _ _ _ _ _ _ _ _ ((hcond1_0 t).mpr h0) (fun h => h3 ((hcond1_1 t).mp h)) (ablk1 V c t) (bblk1 V c t) _ Set.univ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS1_pos V c _ _ hz, acc1_next V c t h0]
    by_cases h3 : t.val % 4 = 3
    · -- the last tile of a row
      rw [leaves1_2_live V c t h3, acc1_next V c t h0]
      iintro ⟨⟨⟨HS, Hrest⟩, Hg⟩, Ho, ⟨%d0, H0⟩, ⟨%d1, H1⟩, ⟨%d2, H2⟩⟩
      iapply (run1_last c (grid1.coords t) _ _ _ _ _ _ _ _ (fun h => h0 ((hcond1_0 t).mp h)) ((hcond1_1 t).mpr h3) (ablk1 V c t) (bblk1 V c t) _ Set.univ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · -- a middle tile
      rw [Dat.leavesExact_idle (dat1 V c) 2 t (idle1_2 t h3) (noflush1_2 t h3)]
      iintro ⟨⟨⟨HS, Hrest⟩, Hg⟩, Ho, ⟨%d0, H0⟩, ⟨%d1, H1⟩, ⟨%d2, H2⟩⟩
      iapply (run1_mid c (grid1.coords t) _ _ _ _ _ _ _ _ (fun h => h0 ((hcond1_0 t).mp h)) (fun h => h3 ((hcond1_1 t).mp h)) (ablk1 V c t) (bblk1 V c t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega)]
  refine .trans ?_ (PhiA1_close c)
  iintro ⟨⟨HS, Hrest⟩, Hg⟩
  isplitl [HS Hrest]
  · isplitl [HS]; · iexists _; iexact HS
    iexact Hrest
  iexact Hg

end Region1

end Cert.Kernel.Hand

end
-- ==== Proof.K.Regs.lean ====
/-
  @main as segments, at any float instance. Between two items core `c` holds every unscoped buffer at a valuation: the launch
  memory, then each stretch of host operations applied, then — after a region — the region's output array replaced by what
  the pipeline's write-backs leave (`outs`). Each region is a segment record over the proof data of Data.lean; the launch
  composes the eight items, and its conclusion reads every unscoped buffer of the final memory at the last valuation. Both
  the frame claim (the two arguments end as launched) and the value of the result buffer are read off that conclusion.
-/
import proofs.«139026_j64518998721097_1_alg».proof.Proof.K.Data
import proofs.«139026_j64518998721097_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- Core `c`'s buffers when region 0 is entered, read at a TensorCore reference. -/
abbrev VA (c : Dev nD) (b : Ref sig .tc) : Buf (Elt F) ((c : Thread nD τ).loc b) := Gen.V4 m c b

/-- What region 0 leaves in its output array. -/
def out0 (c : Dev nD) : Buf (Elt F) ((c : Thread nD τ).loc main_v10) := (dat0 (VA m) c).arrAt 2 cfg0.N

/-- The regions' exit contents, as far as region 0 decides them. -/
def outsA : Gen.Outs (F := F) := fun _ r c =>
  Function.update (fun r : Ref sig .tc => m ((c : Thread nD τ).loc r)) main_v10 (out0 m c) r

/-- Core `c`'s buffers when region 1 is entered. -/
abbrev VB (c : Dev nD) (b : Ref sig .tc) : Buf (Elt F) ((c : Thread nD τ).loc b) := Gen.V6 m (outsA m) c b

/-- What region 1 leaves in its output array. -/
def out1 (c : Dev nD) : Buf (Elt F) ((c : Thread nD τ).loc main_v12) := (dat1 (VB m) c).arrAt 2 cfg1.N

/-- The regions' exit contents: after item 4 region 0's array, after item 6 region 1's. -/
def outs : Gen.Outs (F := F) := fun J r c =>
  if J = 5 then outsA m J r c
  else Function.update (fun r : Ref sig .tc => m ((c : Thread nD τ).loc r)) main_v12 (out1 m c) r

theorem outs_5 (c : Dev nD) : outs m 5 main_v10 c = out0 m c := by
  unfold outs outsA; rw [if_pos rfl, Function.update_self]
theorem outs_7 (c : Dev nD) : outs m 7 main_v12 c = out1 m c := by
  unfold outs; rw [if_neg (by decide), Function.update_self]

/-- Region 1 is entered from the same contents whichever of the two families names region 0's exit. -/
theorem V6_outs (c : Dev nD) : Gen.V6 m (outs m) c = Gen.V6 m (outsA m) c := rfl

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (VA m) c
  | ⟨1, _⟩ => fun c => dat1 (VB m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and its `owes` at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- What rides beside the buffers ends owing nothing. -/
theorem R_owes (c : Dev nD) : R (F := F) c ⊢ (iprop(∃ W, owes (c : Thread nD τ) (0 : CellTallies nD τ sig Unit) W) : sProp 𝕄) := by
  iintro ⟨-, HO⟩; iexact HO

/-! ## Each region's arrays at its exit -/

theorem hF0 (c : Dev nD) (w : Fin cfg0.W) : (pdats m 0 c).arrAt w cfg0.N = Gen.V5 m (outs m) c (Pipeline.arrRef spec0 w) := by
  match w with
  | ⟨0, _⟩ => exact ((dat0 (VA m) c).arrAt_in 0 rfl _).trans ((A_eq0 (VA m) c 0).trans (Gen.V5_of m (outs m) c main_v4 (by decide)).symm)
  | ⟨1, _⟩ => exact ((dat0 (VA m) c).arrAt_in 1 rfl _).trans ((A_eq0 (VA m) c 1).trans (Gen.V5_of m (outs m) c main_v9 (by decide)).symm)
  | ⟨2, _⟩ =>
    show out0 m c = Gen.V5 m (outs m) c main_v10
    rw [← outs_5 m c]; simp only [Gen.V5, Function.update_self]
theorem hrest0 (c : Dev nD) : ∀ b, b ∉ Finset.univ.image (Pipeline.arrRef spec0) → Gen.V5 m (outs m) c b = VA m c b :=
  fun b hb => Gen.V5_of m (outs m) c b (fun h => hb (Finset.mem_image.mpr ⟨2, Finset.mem_univ _, (List.mem_singleton.mp h).symm⟩))

theorem hF1 (c : Dev nD) (w : Fin cfg1.W) : (pdats m 1 c).arrAt w cfg1.N = Gen.V7 m (outs m) c (Pipeline.arrRef spec1 w) := by
  match w with
  | ⟨0, _⟩ => exact ((dat1 (VB m) c).arrAt_in 0 rfl _).trans ((A_eq1 (VB m) c 0).trans (Gen.V7_of m (outs m) c main_v9 (by decide)).symm)
  | ⟨1, _⟩ => exact ((dat1 (VB m) c).arrAt_in 1 rfl _).trans ((A_eq1 (VB m) c 1).trans (Gen.V7_of m (outs m) c main_v4 (by decide)).symm)
  | ⟨2, _⟩ =>
    show out1 m c = Gen.V7 m (outs m) c main_v12
    rw [← outs_7 m c]; simp only [Gen.V7, Function.update_self]
theorem hrest1 (c : Dev nD) : ∀ b, b ∉ Finset.univ.image (Pipeline.arrRef spec1) → Gen.V7 m (outs m) c b = VB m c b :=
  fun b hb => Gen.V7_of m (outs m) c b (fun h => hb (Finset.mem_image.mpr ⟨2, Finset.mem_univ _, (List.mem_singleton.mp h).symm⟩))

/-! ## The regions as segments -/

set_option backward.isDefEq.respectTransparency.types false in
/-- Region 0 as a segment: entered from every unscoped buffer at the contents before it, left with its output array at
    what its write-backs leave and every other buffer as entered; the generator register goes into the region invariant
    and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VA m) c)
    unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left with its output array at
    what its write-backs leave and every other buffer as entered; the generator register goes into the region invariant
    and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V6 m (outs m) c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held, show Gen.V6 m (outsA m) c = Gen.V6 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution of @main terminates, and in the final memory every
    unscoped buffer of core `c` holds the last valuation's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (R_owes c)⟩)
    (hinit := ?_)
    (QY := fun c s => ∀ b ∈ Pipeline.ucRefs τ sig, s.mem ((c : Thread nD τ).1, b) = Gen.V8 m (outs m) c b)
    (hfin := fun c s' => ?_) (hQ := fun _ h => h)
  · -- the launch: the unscoped buffers at the launch memory, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V8 m (outs m) c) s')
    isplitl [Hh] <;> iassumption

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Gen.V8_main_arg0 m (outs m) c),
     (h c _ (mem_uc main_arg1 (by decide))).trans (Gen.V8_main_arg1 m (outs m) c)⟩) (run_all m ρ)

end Cert.Kernel.Hand

end
-- ==== Proof.KI.Body.lean ====
/-
  The kernel body of each of the two cross-sum regions, as three triples: on whole staging buffers holding a block `a`
  of the row operand, a block `b` of the column operand, an output block and the scratch column, the body runs to the end
  and leaves the inputs as they were and the scratch one accumulation step further (from the zero column at the first tile
  of a row of the grid, from what it held otherwise); the output block is left untouched except at the last tile of a
  row, where it receives the scratch's new contents. Stated at any float instance.
-/
import proofs.«139026_j64518998721097_1_alg».proof.Proof.Gen.KernelIdeal.Launch
import proofs.«139026_j64518998721097_1_alg».proof.Proof.Gen.KernelIdeal.Skeleton
import proofs.«139026_j64518998721097_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle of rank 2 are zero. -/
theorem hz2 : (![0, 0] : Fin 2 → ℕ) = fun _ => 0 := by funext x; fin_cases x <;> rfl

/-! ## Region 0: the kernel body's three control cases

The body branches twice on the grid's second coordinate `j`: it zeroes the scratch column where `j = 0`, always adds the
tile's row sums into it, and copies it into the output block where `j = 3`. Four tiles make a row of the grid, so the two
conditions never hold together, and three cases remain. -/

/-- `j = 0`: the first branch is taken. -/
abbrev cond0_0 (i : grid0.Coords) : Prop := (Scalar.cmpi .ne (Scalar.extui (Scalar.cmpi .eq (BitVec.ofNat 32 (i 1).val) 0#32)) 0#32) = 1#1
/-- `j = 3`: the second branch is taken. -/
abbrev cond0_1 (i : grid0.Coords) : Prop := k0_cond2 i = 1#1

set_option maxHeartbeats 1000000 in
/-- First tile of a row: the scratch, whatever it held, ends at one step from the zero column; the output block is not touched. -/
theorem run0_first (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : cond0_0 i) (h2 : ¬cond0_1 i)
    (a : Vec F S2048x256 .f32) (b : Vec F S1024x256 .f32) (o : Vec F S2048x1 .f32) (E : Set ℕ) (K : PUnit → sProp 𝕄) :
    iprop(owns (c : Thread nD τ) arg2 fullShare a ∗ owns (c : Thread nD τ) arg3 fullShare b ∗ owns (c : Thread nD τ) arg4 fullShare o
        ∗ (∃ d, owns (c : Thread nD τ) arg5 fullShare d)
        ∗ (iprop(owns (c : Thread nD τ) arg2 fullShare a ∗ owns (c : Thread nD τ) arg3 fullShare b ∗ owns (c : Thread nD τ) arg4 fullShare o
            ∗ owns (c : Thread nD τ) arg5 fullShare (k0_pay2 a b k0_pay1)) -∗ K ⟨⟩))
      ⊢ wp frame (wpE (defs₀ (F := F)) Variants.none c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, View.ld_unit_zero (S := S2048x256) hz2, View.ld_unit_zero (S := S1024x256) hz2, View.ld_unit_zero (S := S2048x1) hz2, View.readCov_unit_zero (S := S2048x1) _ hz2]

set_option maxHeartbeats 1000000 in
/-- A middle tile: one more step on what the scratch held; the output block is not touched. -/
theorem run0_mid (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : ¬cond0_0 i) (h2 : ¬cond0_1 i)
    (a : Vec F S2048x256 .f32) (b : Vec F S1024x256 .f32) (o s : Vec F S2048x1 .f32) (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare o
            ∗ owns (c : Thread nD τ) arg5 fullShare (k0_pay2 a b s)) -∗ K ⟨⟩))
      ⊢ wp frame (wpE (defs₀ (F := F)) Variants.none c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, harg5.read_unread, View.ld_unit_zero (S := S2048x256) hz2, View.ld_unit_zero (S := S1024x256) hz2, View.ld_unit_zero (S := S2048x1) hz2]

set_option maxHeartbeats 1000000 in
/-- Last tile of a row: one more step on what the scratch held, and the output block, whatever it held, ends at the same column. -/
theorem run0_last (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : ¬cond0_0 i) (h2 : cond0_1 i)
    (a : Vec F S2048x256 .f32) (b : Vec F S1024x256 .f32) (s : Vec F S2048x1 .f32) (E : Set ℕ) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare s
        ∗ (iprop(owns (c : Thread nD τ) arg2 fullShare a ∗ owns (c : Thread nD τ) arg3 fullShare b ∗ owns (c : Thread nD τ) arg4 fullShare (k0_pay2 a b s)
            ∗ owns (c : Thread nD τ) arg5 fullShare (k0_pay2 a b s)) -∗ K ⟨⟩))
      ⊢ wp frame (wpE (defs₀ (F := F)) Variants.none c none) E (cc0__sum_kernel i arg2 harg2 arg3 harg3 arg4 harg4 arg5 harg5) K := by
  simp only [cc0__sum_kernel_eq_skeleton]; unfold cc0__sum_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (fun y => ⟨_, List.mem_cons_self, View.mem_set_unit_zero hz2 inb_S2048x1_S2048x1_0_0 y⟩), View.canon_cons_unit_zero hz2]
    rw [View.readCov_eq_canon_ld _ _ _ (fun y => ⟨_, List.mem_cons_self, View.mem_set_unit_zero hz2 inb_S2048x1_S2048x1_0_0 y⟩), View.canon_cons_unit_zero hz2]
    simp only [View.readAt_eq_ld, harg2.read_unread, harg3.read_unread, harg5.read_unread, View.ld_unit_zero (S := S2048x256) hz2, View.ld_unit_zero (S := S1024x256) hz2, View.ld_unit_zero (S := S2048x1) hz2]
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, harg5.read_unread, View.ld_unit_zero (S := S2048x256) hz2, View.ld_unit_zero (S := S1024x256) hz2, View.ld_unit_zero (S := S2048x1) hz2]

/-! ## Region 1: the kernel body's three control cases

The body branches twice on the grid's second coordinate `j`: it zeroes the scratch column where `j = 0`, always adds the
tile's row sums into it, and copies it into the output block where `j = 3`. Four tiles make a row of the grid, so the two
conditions never hold together, and three cases remain. -/

/-- `j = 0`: the first branch is taken. -/
abbrev cond1_0 (i : grid1.Coords) : Prop := (Scalar.cmpi .ne (Scalar.extui (Scalar.cmpi .eq (BitVec.ofNat 32 (i 1).val) 0#32)) 0#32) = 1#1
/-- `j = 3`: the second branch is taken. -/
abbrev cond1_1 (i : grid1.Coords) : Prop := k1_cond2 i = 1#1

set_option maxHeartbeats 1000000 in
/-- First tile of a row: the scratch, whatever it held, ends at one step from the zero column; the output block is not touched. -/
theorem run1_first (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : cond1_0 i) (h2 : ¬cond1_1 i)
    (a : Vec F S2048x256 .f32) (b : Vec F S1024x256 .f32) (o : Vec F S2048x1 .f32) (E : Set ℕ) (K : PUnit → sProp 𝕄) :
    iprop(owns (c : Thread nD τ) arg2 fullShare a ∗ owns (c : Thread nD τ) arg3 fullShare b ∗ owns (c : Thread nD τ) arg4 fullShare o
        ∗ (∃ d, owns (c : Thread nD τ) arg5 fullShare d)
        ∗ (iprop(owns (c : Thread nD τ) arg2 fullShare a ∗ owns (c : Thread nD τ) arg3 fullShare b ∗ owns (c : Thread nD τ) arg4 fullShare o
            ∗ owns (c : Thread nD τ) arg5 fullShare (k1_pay2 a b k1_pay1)) -∗ K ⟨⟩))
      ⊢ wp frame (wpE (defs₀ (F := F)) Variants.none c none) E (cc1__sum_kernel i arg2 harg2 arg3 harg3 arg4 harg4 arg5 harg5) K := by
  simp only [cc1__sum_kernel_eq_skeleton]; unfold cc1__sum_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, View.ld_unit_zero (S := S2048x256) hz2, View.ld_unit_zero (S := S1024x256) hz2, View.ld_unit_zero (S := S2048x1) hz2, View.readCov_unit_zero (S := S2048x1) _ hz2]

set_option maxHeartbeats 1000000 in
/-- A middle tile: one more step on what the scratch held; the output block is not touched. -/
theorem run1_mid (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : ¬cond1_0 i) (h2 : ¬cond1_1 i)
    (a : Vec F S2048x256 .f32) (b : Vec F S1024x256 .f32) (o s : Vec F S2048x1 .f32) (E : Set ℕ) (K : PUnit → sProp 𝕄) :
    iprop(owns (c : Thread nD τ) arg2 fullShare a ∗ owns (c : Thread nD τ) arg3 fullShare b ∗ owns (c : Thread nD τ) arg4 fullShare o
        ∗ owns (c : Thread nD τ) arg5 fullShare s
        ∗ (iprop(owns (c : Thread nD τ) arg2 fullShare a ∗ owns (c : Thread nD τ) arg3 fullShare b ∗ owns (c : Thread nD τ) arg4 fullShare o
            ∗ owns (c : Thread nD τ) arg5 fullShare (k1_pay2 a b s)) -∗ K ⟨⟩))
      ⊢ wp frame (wpE (defs₀ (F := F)) Variants.none c none) E (cc1__sum_kernel i arg2 harg2 arg3 harg3 arg4 harg4 arg5 harg5) K := by
  simp only [cc1__sum_kernel_eq_skeleton]; unfold cc1__sum_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, harg5.read_unread, View.ld_unit_zero (S := S2048x256) hz2, View.ld_unit_zero (S := S1024x256) hz2, View.ld_unit_zero (S := S2048x1) hz2]

set_option maxHeartbeats 1000000 in
/-- Last tile of a row: one more step on what the scratch held, and the output block, whatever it held, ends at the same column. -/
theorem run1_last (c : Dev nD) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1 .f32) (harg4 : arg4.IsWhole) (arg5 : Memref sig .tc .vmem S2048x1 .f32) (harg5 : arg5.IsWhole)
    (h1 : ¬cond1_0 i) (h2 : cond1_1 i)
    (a : Vec F S2048x256 .f32) (b : Vec F S1024x256 .f32) (s : Vec F S2048x1 .f32) (E : Set ℕ) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare s
        ∗ (iprop(owns (c : Thread nD τ) arg2 fullShare a ∗ owns (c : Thread nD τ) arg3 fullShare b ∗ owns (c : Thread nD τ) arg4 fullShare (k1_pay2 a b s)
            ∗ owns (c : Thread nD τ) arg5 fullShare (k1_pay2 a b s)) -∗ K ⟨⟩))
      ⊢ wp frame (wpE (defs₀ (F := F)) Variants.none c none) E (cc1__sum_kernel i arg2 harg2 arg3 harg3 arg4 harg4 arg5 harg5) K := by
  simp only [cc1__sum_kernel_eq_skeleton]; unfold cc1__sum_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (fun y => ⟨_, List.mem_cons_self, View.mem_set_unit_zero hz2 inb_S2048x1_S2048x1_0_0 y⟩), View.canon_cons_unit_zero hz2]
    rw [View.readCov_eq_canon_ld _ _ _ (fun y => ⟨_, List.mem_cons_self, View.mem_set_unit_zero hz2 inb_S2048x1_S2048x1_0_0 y⟩), View.canon_cons_unit_zero hz2]
    simp only [View.readAt_eq_ld, harg2.read_unread, harg3.read_unread, harg5.read_unread, View.ld_unit_zero (S := S2048x256) hz2, View.ld_unit_zero (S := S1024x256) hz2, View.ld_unit_zero (S := S2048x1) hz2]
  iexists _; isplitr
  swap; · iexact H5
  ipureintro
  sl_unfold_words
  rw [View.read_writes_eq_canon _ _ _ (fun y => ⟨_, List.mem_cons_self, View.mem_set_unit_zero hz2 inb_S2048x1_S2048x1_0_0 y⟩), View.canon_cons_unit_zero hz2]
  simp only [View.readAt_eq_ld, harg2.read_unread, harg3.read_unread, harg5.read_unread, View.ld_unit_zero (S := S2048x256) hz2, View.ld_unit_zero (S := S1024x256) hz2, View.ld_unit_zero (S := S2048x1) hz2]

end Cert.KernelIdeal.Hand

end
-- ==== Proof.KI.Data.lean ====
/-
  The proof data of the two cross-sum regions, at any float instance and at any contents `V` the region is entered from:
  the blocks of the operands at a grid point, the scratch column's contents point by point (`acc`), the region invariant
  that carries them from one point to the next, and the body obligation — by cases on the point's residue mod 4, each
  case one of the three triples of the body.
-/
import proofs.«139026_j64518998721097_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0

The grid is 2 × 4: point `t` works on row block `t / 4` of the first operand and on column tile `t % 4` of the second.
The scratch column is reset at the points with `t % 4 = 0`, receives one more tile's row sums at every point, and is
copied to the output block — which the pipeline then writes back — at the points with `t % 4 = 3`. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row operand's block and the column operand's tile at point `t`, at their literal shapes. -/
abbrev ablk0 (c : Dev nD) (t : Fin cfg0.N) : Vec F S2048x256 .f32 := iblk0 V c 0 t
abbrev bblk0 (c : Dev nD) (t : Fin cfg0.N) : Vec F S1024x256 .f32 := iblk0 V c 1 t

/-- THE ACCUMULATION: the scratch column after the body at point `n` — one step from the zero column where a row of the
    grid begins, one step from what the point before left otherwise. -/
def acc0 (c : Dev nD) : (n : ℕ) → n < cfg0.N → Vec F S2048x1 .f32
  | 0, h => k0_pay2 (ablk0 V c ⟨0, h⟩) (bblk0 V c ⟨0, h⟩) k0_pay1
  | n + 1, h =>
    if (n + 1) % 4 = 0 then k0_pay2 (ablk0 V c ⟨n + 1, h⟩) (bblk0 V c ⟨n + 1, h⟩) k0_pay1
    else k0_pay2 (ablk0 V c ⟨n + 1, h⟩) (bblk0 V c ⟨n + 1, h⟩) (acc0 c n (Nat.lt_of_succ_lt h))

theorem acc0_first (c : Dev nD) (t : Fin cfg0.N) (h : t.val % 4 = 0) :
    acc0 V c t.val t.isLt = k0_pay2 (ablk0 V c t) (bblk0 V c t) k0_pay1 := by
  obtain ⟨n, hn⟩ := t
  cases n with
  | zero => rfl
  | succ n => exact if_pos h

theorem acc0_next (c : Dev nD) (t : Fin cfg0.N) (h : ¬t.val % 4 = 0) :
    acc0 V c t.val t.isLt
      = k0_pay2 (ablk0 V c t) (bblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The branch conditions and the output window's idle points, over the grid -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- Where the body does not store into the output block the window is idle, -/
theorem idle0_2 : ∀ t : Fin cfg0.N, ¬t.val % 4 = 3 → cfg0.idle 2 (grid0.coords t) = true :=
  (by decide +kernel : ∀ t : Fin grid0.N, ¬t.val % 4 = 3 → cfg0.idle 2 (grid0.coords t) = true)
/-- and live where it does. -/
theorem live0_2 : ∀ t : Fin cfg0.N, t.val % 4 = 3 → cfg0.idle 2 (grid0.coords t) = false :=
  (by decide +kernel : ∀ t : Fin grid0.N, t.val % 4 = 3 → cfg0.idle 2 (grid0.coords t) = false)
theorem noflush0_2 (t : Fin cfg0.N) (h : ¬t.val % 4 = 3) : (cfg0.win 2).flush t = false :=
  Bool.eq_false_iff.mpr fun hf => h ((flush0_2 t).mp hf)

/-! ## The region invariant -/

/-- The scratch column, a whole scoped buffer of the kernel's own. -/
abbrev scM0 : Memref sig .tc .vmem S2048x1 .f32 := Memref.whole cc0_scratch0

/-- The core's other scoped buffers that this region does not stage (the other region's staging buffers and scratch), each
    at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's invariant with the scratch column named: -/
theorem PhiA0_open (c : Dev nD) :
    (Pipeline.ΦA spec0 c : sProp 𝕄) ⊢ iprop(((∃ d, owns (c : Thread nD τ) scM0 fullShare d) ∗ rest0 c) ∗ ∃ r, prngReg c r) := by
  unfold Pipeline.ΦA rest0; rw [scopedRest0_eq]; simp only [scM0, owns_whole]
  iintro ⟨⟨A, B1, B2, B3, B4, B5, B6, B7⟩, Hg⟩
  isplitl [A B1 B2 B3 B4 B5 B6 B7]
  · isplitl [A]; · iexact A
    isplitl [B1]; · iexact B1
    isplitl [B2]; · iexact B2
    isplitl [B3]; · iexact B3
    isplitl [B4]; · iexact B4
    isplitl [B5]; · iexact B5
    isplitl [B6]; · iexact B6
    iexact B7
  iexact Hg

/-- and back. -/
theorem PhiA0_close (c : Dev nD) :
    iprop(((∃ d, owns (c : Thread nD τ) scM0 fullShare d) ∗ rest0 c) ∗ ∃ r, prngReg c r) ⊢ (Pipeline.ΦA spec0 c : sProp 𝕄) := by
  unfold Pipeline.ΦA rest0; rw [scopedRest0_eq]; simp only [scM0, owns_whole]
  iintro ⟨⟨A, B1, B2, B3, B4, B5, B6, B7⟩, Hg⟩
  isplitl [A B1 B2 B3 B4 B5 B6 B7]
  · isplitl [A]; · iexact A
    isplitl [B1]; · iexact B1
    isplitl [B2]; · iexact B2
    isplitl [B3]; · iexact B3
    isplitl [B4]; · iexact B4
    isplitl [B5]; · iexact B5
    isplitl [B6]; · iexact B6
    iexact B7
  iexact Hg

/-- The invariant before position `n`: before the first point the class's (every scoped buffer at anything); afterwards the
    scratch column at what the point before left in it, the other scoped buffers at anything, the generator register at
    some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ ∃ r, prngReg c r)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ ∃ r, prngReg c r) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ ∃ r, prngReg c r) := by
  cases n with
  | zero => exact absurd rfl hz
  | succ n => rfl

/-! ## The proof data -/

/-- The pipeline's proof data on core `c`: the arrays as the region finds them; after the body each input's buffer at its
    block and the output's at the scratch column's contents (consulted only where the block is written back); the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each input's current staging buffer holds its block at every point, fetched there or not: where it is not fetched its
    index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem leaves0_0 (c : Dev nD) (t : Fin cfg0.N) :
    (dat0 V c).leavesExact 0 t = owns (c : Thread nD τ) (st0_0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (st0_1 t) fullShare (iblk0 V c 1 t) := by
  unfold Dat.leavesExact; rw [show cfg0.idle 1 (cfg0.grid.coords t) = false from rfl, after0_1]
theorem leaves0_2_live (c : Dev nD) (t : Fin cfg0.N) (h : t.val % 4 = 3) :
    (dat0 V c).leavesExact 2 t = owns (c : Thread nD τ) (st0_2 t) fullShare (acc0 V c t.val t.isLt) := by
  unfold Dat.leavesExact; rw [live0_2 t h, after0_2]

set_option maxHeartbeats 2000000 in
/-- The body at any point. The input buffers hold their blocks; the point's residue mod 4 says which of the three cases it is
    in; the invariant hands the body the scratch at what the point before left (at anything where a row of the grid begins) and
    takes it back one step further; an idle output block goes back as it came; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, leaves0_0, leaves0_1, Phi0_castSucc]
  have hN : t.val < 8 := lt_of_lt_of_eq t.isLt (show cfg0.N = 8 from N_0)
  by_cases h0 : t.val % 4 = 0
  · -- the first tile of a row
    have h3 : ¬t.val % 4 = 3 := by omega
    rw [Dat.leavesExact_idle (dat0 V c) 2 t (idle0_2 t h3) (noflush0_2 t h3), acc0_first V c t h0]
    by_cases hz : t.val = 0
    · rw [PhiS0_zero V c _ _ hz]
      iintro ⟨HΦ, Ho, ⟨%d0, H0⟩, ⟨%d1, H1⟩, ⟨%d2, H2⟩⟩
      ihave HΦ' := (PhiA0_open c) $$ HΦ
      icases HΦ' with ⟨⟨HS, Hrest⟩, Hg⟩
      iapply (run0_first c (grid0.coords t) _ _ _ _ _ _ _ _ ((hcond0_0 t).mpr h0) (fun h => h3 ((hcond0_1 t).mp h)) (ablk0 V c t) (bblk0 V c t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS0_pos V c _ _ hz]
      iintro ⟨⟨⟨HS, Hrest⟩, Hg⟩, Ho, ⟨%d0, H0⟩, ⟨%d1, H1⟩, ⟨%d2, H2⟩⟩
      iapply (run0_first c (grid0.coords t) _ _ _ _ _ _ _ _ ((hcond0_0 t).mpr h0) (fun h => h3 ((hcond0_1 t).mp h)) (ablk0 V c t) (bblk0 V c t) _ Set.univ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS0_pos V c _ _ hz, acc0_next V c t h0]
    by_cases h3 : t.val % 4 = 3
    · -- the last tile of a row
      rw [leaves0_2_live V c t h3, acc0_next V c t h0]
      iintro ⟨⟨⟨HS, Hrest⟩, Hg⟩, Ho, ⟨%d0, H0⟩, ⟨%d1, H1⟩, ⟨%d2, H2⟩⟩
      iapply (run0_last c (grid0.coords t) _ _ _ _ _ _ _ _ (fun h => h0 ((hcond0_0 t).mp h)) ((hcond0_1 t).mpr h3) (ablk0 V c t) (bblk0 V c t) _ Set.univ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · -- a middle tile
      rw [Dat.leavesExact_idle (dat0 V c) 2 t (idle0_2 t h3) (noflush0_2 t h3)]
      iintro ⟨⟨⟨HS, Hrest⟩, Hg⟩, Ho, ⟨%d0, H0⟩, ⟨%d1, H1⟩, ⟨%d2, H2⟩⟩
      iapply (run0_mid c (grid0.coords t) _ _ _ _ _ _ _ _ (fun h => h0 ((hcond0_0 t).mp h)) (fun h => h3 ((hcond0_1 t).mp h)) (ablk0 V c t) (bblk0 V c t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega)]
  refine .trans ?_ (PhiA0_close c)
  iintro ⟨⟨HS, Hrest⟩, Hg⟩
  isplitl [HS Hrest]
  · isplitl [HS]; · iexists _; iexact HS
    iexact Hrest
  iexact Hg

end Region0

/-! # Region 1

The grid is 2 × 4: point `t` works on row block `t / 4` of the first operand and on column tile `t % 4` of the second.
The scratch column is reset at the points with `t % 4 = 0`, receives one more tile's row sums at every point, and is
copied to the output block — which the pipeline then writes back — at the points with `t % 4 = 3`. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row operand's block and the column operand's tile at point `t`, at their literal shapes. -/
abbrev ablk1 (c : Dev nD) (t : Fin cfg1.N) : Vec F S2048x256 .f32 := iblk1 V c 0 t
abbrev bblk1 (c : Dev nD) (t : Fin cfg1.N) : Vec F S1024x256 .f32 := iblk1 V c 1 t

/-- THE ACCUMULATION: the scratch column after the body at point `n` — one step from the zero column where a row of the
    grid begins, one step from what the point before left otherwise. -/
def acc1 (c : Dev nD) : (n : ℕ) → n < cfg1.N → Vec F S2048x1 .f32
  | 0, h => k1_pay2 (ablk1 V c ⟨0, h⟩) (bblk1 V c ⟨0, h⟩) k1_pay1
  | n + 1, h =>
    if (n + 1) % 4 = 0 then k1_pay2 (ablk1 V c ⟨n + 1, h⟩) (bblk1 V c ⟨n + 1, h⟩) k1_pay1
    else k1_pay2 (ablk1 V c ⟨n + 1, h⟩) (bblk1 V c ⟨n + 1, h⟩) (acc1 c n (Nat.lt_of_succ_lt h))

theorem acc1_first (c : Dev nD) (t : Fin cfg1.N) (h : t.val % 4 = 0) :
    acc1 V c t.val t.isLt = k1_pay2 (ablk1 V c t) (bblk1 V c t) k1_pay1 := by
  obtain ⟨n, hn⟩ := t
  cases n with
  | zero => rfl
  | succ n => exact if_pos h

theorem acc1_next (c : Dev nD) (t : Fin cfg1.N) (h : ¬t.val % 4 = 0) :
    acc1 V c t.val t.isLt
      = k1_pay2 (ablk1 V c t) (bblk1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The branch conditions and the output window's idle points, over the grid -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
/-- Where the body does not store into the output block the window is idle, -/
theorem idle1_2 : ∀ t : Fin cfg1.N, ¬t.val % 4 = 3 → cfg1.idle 2 (grid1.coords t) = true :=
  (by decide +kernel : ∀ t : Fin grid1.N, ¬t.val % 4 = 3 → cfg1.idle 2 (grid1.coords t) = true)
/-- and live where it does. -/
theorem live1_2 : ∀ t : Fin cfg1.N, t.val % 4 = 3 → cfg1.idle 2 (grid1.coords t) = false :=
  (by decide +kernel : ∀ t : Fin grid1.N, t.val % 4 = 3 → cfg1.idle 2 (grid1.coords t) = false)
theorem noflush1_2 (t : Fin cfg1.N) (h : ¬t.val % 4 = 3) : (cfg1.win 2).flush t = false :=
  Bool.eq_false_iff.mpr fun hf => h ((flush1_2 t).mp hf)

/-! ## The region invariant -/

/-- The scratch column, a whole scoped buffer of the kernel's own. -/
abbrev scM1 : Memref sig .tc .vmem S2048x1 .f32 := Memref.whole cc1_scratch0

/-- The core's other scoped buffers that this region does not stage (the other region's staging buffers and scratch), each
    at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class's invariant with the scratch column named: -/
theorem PhiA1_open (c : Dev nD) :
    (Pipeline.ΦA spec1 c : sProp 𝕄) ⊢ iprop(((∃ d, owns (c : Thread nD τ) scM1 fullShare d) ∗ rest1 c) ∗ ∃ r, prngReg c r) := by
  unfold Pipeline.ΦA rest1; rw [scopedRest1_eq]; simp only [scM1, owns_whole]
  iintro ⟨⟨B1, B2, B3, B4, B5, B6, B7, A⟩, Hg⟩
  isplitl [A B1 B2 B3 B4 B5 B6 B7]
  · isplitl [A]; · iexact A
    isplitl [B1]; · iexact B1
    isplitl [B2]; · iexact B2
    isplitl [B3]; · iexact B3
    isplitl [B4]; · iexact B4
    isplitl [B5]; · iexact B5
    isplitl [B6]; · iexact B6
    iexact B7
  iexact Hg

/-- and back. -/
theorem PhiA1_close (c : Dev nD) :
    iprop(((∃ d, owns (c : Thread nD τ) scM1 fullShare d) ∗ rest1 c) ∗ ∃ r, prngReg c r) ⊢ (Pipeline.ΦA spec1 c : sProp 𝕄) := by
  unfold Pipeline.ΦA rest1; rw [scopedRest1_eq]; simp only [scM1, owns_whole]
  iintro ⟨⟨A, B1, B2, B3, B4, B5, B6, B7⟩, Hg⟩
  isplitl [A B1 B2 B3 B4 B5 B6 B7]
  · isplitl [B1]; · iexact B1
    isplitl [B2]; · iexact B2
    isplitl [B3]; · iexact B3
    isplitl [B4]; · iexact B4
    isplitl [B5]; · iexact B5
    isplitl [B6]; · iexact B6
    isplitl [B7]; · iexact B7
    iexact A
  iexact Hg

/-- The invariant before position `n`: before the first point the class's (every scoped buffer at anything); afterwards the
    scratch column at what the point before left in it, the other scoped buffers at anything, the generator register at
    some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ ∃ r, prngReg c r)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ ∃ r, prngReg c r) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ ∃ r, prngReg c r) := by
  cases n with
  | zero => exact absurd rfl hz
  | succ n => rfl

/-! ## The proof data -/

/-- The pipeline's proof data on core `c`: the arrays as the region finds them; after the body each input's buffer at its
    block and the output's at the scratch column's contents (consulted only where the block is written back); the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its block at every point, fetched there or not: where it is not fetched its
    index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2_live (c : Dev nD) (t : Fin cfg1.N) (h : t.val % 4 = 3) :
    (dat1 V c).leavesExact 2 t = owns (c : Thread nD τ) (st1_2 t) fullShare (acc1 V c t.val t.isLt) := by
  unfold Dat.leavesExact; rw [live1_2 t h, after1_2]

set_option maxHeartbeats 2000000 in
/-- The body at any point. The input buffers hold their blocks; the point's residue mod 4 says which of the three cases it is
    in; the invariant hands the body the scratch at what the point before left (at anything where a row of the grid begins) and
    takes it back one step further; an idle output block goes back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, leaves1_0, leaves1_1, Phi1_castSucc]
  have hN : t.val < 8 := lt_of_lt_of_eq t.isLt (show cfg1.N = 8 from N_1)
  by_cases h0 : t.val % 4 = 0
  · -- the first tile of a row
    have h3 : ¬t.val % 4 = 3 := by omega
    rw [Dat.leavesExact_idle (dat1 V c) 2 t (idle1_2 t h3) (noflush1_2 t h3), acc1_first V c t h0]
    by_cases hz : t.val = 0
    · rw [PhiS1_zero V c _ _ hz]
      iintro ⟨HΦ, Ho, ⟨%d0, H0⟩, ⟨%d1, H1⟩, ⟨%d2, H2⟩⟩
      ihave HΦ' := (PhiA1_open c) $$ HΦ
      icases HΦ' with ⟨⟨HS, Hrest⟩, Hg⟩
      iapply (run1_first c (grid1.coords t) _ _ _ _ _ _ _ _ ((hcond1_0 t).mpr h0) (fun h => h3 ((hcond1_1 t).mp h)) (ablk1 V c t) (bblk1 V c t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS1_pos V c _ _ hz]
      iintro ⟨⟨⟨HS, Hrest⟩, Hg⟩, Ho, ⟨%d0, H0⟩, ⟨%d1, H1⟩, ⟨%d2, H2⟩⟩
      iapply (run1_first c (grid1.coords t) _ _ _ _ _ _ _ _ ((hcond1_0 t).mpr h0) (fun h => h3 ((hcond1_1 t).mp h)) (ablk1 V c t) (bblk1 V c t) _ Set.univ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    rw [PhiS1_pos V c _ _ hz, acc1_next V c t h0]
    by_cases h3 : t.val % 4 = 3
    · -- the last tile of a row
      rw [leaves1_2_live V c t h3, acc1_next V c t h0]
      iintro ⟨⟨⟨HS, Hrest⟩, Hg⟩, Ho, ⟨%d0, H0⟩, ⟨%d1, H1⟩, ⟨%d2, H2⟩⟩
      iapply (run1_last c (grid1.coords t) _ _ _ _ _ _ _ _ (fun h => h0 ((hcond1_0 t).mp h)) ((hcond1_1 t).mpr h3) (ablk1 V c t) (bblk1 V c t) _ Set.univ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · -- a middle tile
      rw [Dat.leavesExact_idle (dat1 V c) 2 t (idle1_2 t h3) (noflush1_2 t h3)]
      iintro ⟨⟨⟨HS, Hrest⟩, Hg⟩, Ho, ⟨%d0, H0⟩, ⟨%d1, H1⟩, ⟨%d2, H2⟩⟩
      iapply (run1_mid c (grid1.coords t) _ _ _ _ _ _ _ _ (fun h => h0 ((hcond1_0 t).mp h)) (fun h => h3 ((hcond1_1 t).mp h)) (ablk1 V c t) (bblk1 V c t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega)]
  refine .trans ?_ (PhiA1_close c)
  iintro ⟨⟨HS, Hrest⟩, Hg⟩
  isplitl [HS Hrest]
  · isplitl [HS]; · iexists _; iexact HS
    iexact Hrest
  iexact Hg

end Region1

end Cert.KernelIdeal.Hand

end
-- ==== Proof.KI.Regs.lean ====
/-
  @main as segments, at any float instance. Between two items core `c` holds every unscoped buffer at a valuation: the launch
  memory, then each stretch of host operations applied, then — after a region — the region's output array replaced by what
  the pipeline's write-backs leave (`outs`). Each region is a segment record over the proof data of Data.lean; the launch
  composes the eight items, and its conclusion reads every unscoped buffer of the final memory at the last valuation. Both
  the frame claim (the two arguments end as launched) and the value of the result buffer are read off that conclusion.
-/
import proofs.«139026_j64518998721097_1_alg».proof.Proof.KI.Data
import proofs.«139026_j64518998721097_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- Core `c`'s buffers when region 0 is entered, read at a TensorCore reference. -/
abbrev VA (c : Dev nD) (b : Ref sig .tc) : Buf (Elt F) ((c : Thread nD τ).loc b) := Gen.V4 m c b

/-- What region 0 leaves in its output array. -/
def out0 (c : Dev nD) : Buf (Elt F) ((c : Thread nD τ).loc main_v10) := (dat0 (VA m) c).arrAt 2 cfg0.N

/-- The regions' exit contents, as far as region 0 decides them. -/
def outsA : Gen.Outs (F := F) := fun _ r c =>
  Function.update (fun r : Ref sig .tc => m ((c : Thread nD τ).loc r)) main_v10 (out0 m c) r

/-- Core `c`'s buffers when region 1 is entered. -/
abbrev VB (c : Dev nD) (b : Ref sig .tc) : Buf (Elt F) ((c : Thread nD τ).loc b) := Gen.V6 m (outsA m) c b

/-- What region 1 leaves in its output array. -/
def out1 (c : Dev nD) : Buf (Elt F) ((c : Thread nD τ).loc main_v12) := (dat1 (VB m) c).arrAt 2 cfg1.N

/-- The regions' exit contents: after item 4 region 0's array, after item 6 region 1's. -/
def outs : Gen.Outs (F := F) := fun J r c =>
  if J = 5 then outsA m J r c
  else Function.update (fun r : Ref sig .tc => m ((c : Thread nD τ).loc r)) main_v12 (out1 m c) r

theorem outs_5 (c : Dev nD) : outs m 5 main_v10 c = out0 m c := by
  unfold outs outsA; rw [if_pos rfl, Function.update_self]
theorem outs_7 (c : Dev nD) : outs m 7 main_v12 c = out1 m c := by
  unfold outs; rw [if_neg (by decide), Function.update_self]

/-- Region 1 is entered from the same contents whichever of the two families names region 0's exit. -/
theorem V6_outs (c : Dev nD) : Gen.V6 m (outs m) c = Gen.V6 m (outsA m) c := rfl

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (VA m) c
  | ⟨1, _⟩ => fun c => dat1 (VB m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and its `owes` at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- What rides beside the buffers ends owing nothing. -/
theorem R_owes (c : Dev nD) : R (F := F) c ⊢ (iprop(∃ W, owes (c : Thread nD τ) (0 : CellTallies nD τ sig Unit) W) : sProp 𝕄) := by
  iintro ⟨-, HO⟩; iexact HO

/-! ## Each region's arrays at its exit -/

theorem hF0 (c : Dev nD) (w : Fin cfg0.W) : (pdats m 0 c).arrAt w cfg0.N = Gen.V5 m (outs m) c (Pipeline.arrRef spec0 w) := by
  match w with
  | ⟨0, _⟩ => exact ((dat0 (VA m) c).arrAt_in 0 rfl _).trans ((A_eq0 (VA m) c 0).trans (Gen.V5_of m (outs m) c main_v4 (by decide)).symm)
  | ⟨1, _⟩ => exact ((dat0 (VA m) c).arrAt_in 1 rfl _).trans ((A_eq0 (VA m) c 1).trans (Gen.V5_of m (outs m) c main_v9 (by decide)).symm)
  | ⟨2, _⟩ =>
    show out0 m c = Gen.V5 m (outs m) c main_v10
    rw [← outs_5 m c]; simp only [Gen.V5, Function.update_self]
theorem hrest0 (c : Dev nD) : ∀ b, b ∉ Finset.univ.image (Pipeline.arrRef spec0) → Gen.V5 m (outs m) c b = VA m c b :=
  fun b hb => Gen.V5_of m (outs m) c b (fun h => hb (Finset.mem_image.mpr ⟨2, Finset.mem_univ _, (List.mem_singleton.mp h).symm⟩))

theorem hF1 (c : Dev nD) (w : Fin cfg1.W) : (pdats m 1 c).arrAt w cfg1.N = Gen.V7 m (outs m) c (Pipeline.arrRef spec1 w) := by
  match w with
  | ⟨0, _⟩ => exact ((dat1 (VB m) c).arrAt_in 0 rfl _).trans ((A_eq1 (VB m) c 0).trans (Gen.V7_of m (outs m) c main_v9 (by decide)).symm)
  | ⟨1, _⟩ => exact ((dat1 (VB m) c).arrAt_in 1 rfl _).trans ((A_eq1 (VB m) c 1).trans (Gen.V7_of m (outs m) c main_v4 (by decide)).symm)
  | ⟨2, _⟩ =>
    show out1 m c = Gen.V7 m (outs m) c main_v12
    rw [← outs_7 m c]; simp only [Gen.V7, Function.update_self]
theorem hrest1 (c : Dev nD) : ∀ b, b ∉ Finset.univ.image (Pipeline.arrRef spec1) → Gen.V7 m (outs m) c b = VB m c b :=
  fun b hb => Gen.V7_of m (outs m) c b (fun h => hb (Finset.mem_image.mpr ⟨2, Finset.mem_univ _, (List.mem_singleton.mp h).symm⟩))

/-! ## The regions as segments -/

set_option backward.isDefEq.respectTransparency.types false in
/-- Region 0 as a segment: entered from every unscoped buffer at the contents before it, left with its output array at
    what its write-backs leave and every other buffer as entered; the generator register goes into the region invariant
    and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VA m) c)
    unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left with its output array at
    what its write-backs leave and every other buffer as entered; the generator register goes into the region invariant
    and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V6 m (outs m) c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held, show Gen.V6 m (outsA m) c = Gen.V6 m (outs m) c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution of @main terminates, and in the final memory every
    unscoped buffer of core `c` holds the last valuation's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (R_owes c)⟩)
    (hinit := ?_)
    (QY := fun c s => ∀ b ∈ Pipeline.ucRefs τ sig, s.mem ((c : Thread nD τ).1, b) = Gen.V8 m (outs m) c b)
    (hfin := fun c s' => ?_) (hQ := fun _ h => h)
  · -- the launch: the unscoped buffers at the launch memory, the generator register, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V8 m (outs m) c) s')
    isplitl [Hh] <;> iassumption

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Gen.V8_main_arg0 m (outs m) c),
     (h c _ (mem_uc main_arg1 (by decide))).trans (Gen.V8_main_arg1 m (outs m) c)⟩) (run_all m ρ)

end Cert.KernelIdeal.Hand

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KStep.lean ====
/-
  One grid step of the row-sum kernel, read entry by entry on the extended reals.

  A step takes a block a of 2048 rows, a block b of 1024 rows (both of 256 entries a row) and the running column s,
  and returns s plus, at row p, the sum over the 1024 rows q of b of exp (2 · ⟨a_p, b_q⟩). The reset column is zero.
  Each non-pointwise operation of the body (the transpose, the product, the row sum, the cast of a vector to a
  column) is read at an entry by a lemma of its own; the step is their composition.
-/
import proofs.«139026_j64518998721097_1_alg».proof.Proof.Gen.KernelIdeal.Skeleton
import proofs.«139026_j64518998721097_1_alg».proof.Proof.LibPlainDot
import Idealize.ShloMosaic.Lib.Pipeline.Value
import Idealize.ShloMosaic.Lib.ValueIdx
import Idealize.ShloMosaic.PureOps.Ideal.Laws

noncomputable section

namespace Cert.KStep

open Cert.KernelIdeal Cert.KernelIdeal.Gen Idealize.ShloMosaic Idealize.ShloMosaic.ValueIdx
open scoped BigOperators

/-- The word 0x40000000 denotes the number two: sign 0, exponent 128 (one above the bias), significand 1. -/
theorem ofBits_two : Ideal.ofBits .f32 0x40000000#32 = 2 := by
  simp [Ideal.ofBits, Ideal.ieee, -EReal.coe_mul]
  norm_num
  rfl

/-- The reset column is zero at every entry. -/
theorem pay1_apply (i : S2048x1.Idx) : k0_pay1 (F := Ideal) i = 0 := by
  unfold k0_pay1
  rw [shapeCast_self]
  exact Ideal.ofBits_zero_f32

/-- Entry (k, q) of the transposed block is entry (q, k) of the block. -/
theorem transpose_b_apply (b : FVec Ideal S1024x256 .f32) (k : Fin 256) (q : Fin 1024) :
    transpose S256x1024 [1, 0] b transposes_S1024x256_p1_0_S256x1024 (ix2 k q) = b (ix2 q k) :=
  transpose_apply [1, 0] b transposes_S1024x256_p1_0_S256x1024 (ix2 k q) (ix2 q k)
    (fun c => match c with | ⟨0, _⟩ => rfl | ⟨1, _⟩ => rfl)

/-- Entry (p, q) of a · bᵀ accumulated into the zero array is the inner product of row p of a with row q of b. -/
theorem scores_apply (a : FVec Ideal S2048x256 .f32) (b : FVec Ideal S1024x256 .f32) (p : Fin 2048) (q : Fin 1024) :
    matmul dot_S2048x256_S256x1024_S2048x1024_1_0_0_1_n_n none a
        (transpose S256x1024 [1, 0] b transposes_S1024x256_p1_0_S256x1024)
        (constant (F := Ideal) S2048x1024 .f32 0x00000000#32) (ix2 p q)
      = ∑ k : Fin 256, a (ix2 p k) * b (ix2 q k) := by
  refine (PlainDot.matmul_zero_apply 2048 256 1024 a
    (transpose S256x1024 [1, 0] b transposes_S1024x256_p1_0_S256x1024) p q).trans ?_
  exact Finset.sum_congr rfl fun k _ => congrArg (a (ix2 p k) * ·) (transpose_b_apply b k q)

/-- Scaling by the word for two and exponentiating, at an entry. -/
theorem expo_apply (x : FVec Ideal S2048x1024 .f32) (j : S2048x1024.Idx) :
    exp (mulf x (broadcast S2048x1024 (Scalar.ofBits (F := Ideal) .f32 0x40000000#32))) j = Ideal.exp (x j * 2) := by
  show Ideal.exp (x j * Ideal.ofBits .f32 0x40000000#32) = _
  rw [ofBits_two]

/-- The sum along a row: entry p of the reduced vector is the sum over the 1024 columns of row p. -/
theorem rowsum_apply (x : FVec Ideal S2048x1024 .f32) (hφ : FKind.Formats .f32)
    (hacc : (0x00000000#32 : BitVec 32) = FKind.add.neutral .f32 hφ) (p : Fin 2048) :
    multiReduction .add [1] S2048 x 0x00000000#32 reduces_S2048x1024_S2048 hφ hacc (ix1 p)
      = ∑ q : Fin 1024, x (ix2 p q) := by
  refine (Ideal.multiReduction_add_single x 0x00000000#32 reduces_S2048x1024_S2048 hφ hacc (ix1 p)).trans ?_
  refine Finset.sum_congr rfl fun q _ => congrArg x ?_
  funext c
  refine Fin.ext ?_
  match c with
  | ⟨0, _⟩ => rfl
  | ⟨1, _⟩ => rfl

/-- A vector of 2048 entries viewed as a column: entry (p, 0) of the column is entry p of the vector. -/
theorem column_apply (v : FVec Ideal S2048 .f32) (p : Fin 2048) :
    shapeCast S2048x1 v shapeCasts_S2048_S2048x1 (ix2 p (0 : Fin 1)) = v (ix1 p) := by
  refine shapeCast_apply v shapeCasts_S2048_S2048x1 (ix2 p (0 : Fin 1)) (ix1 p) ?_
  rw [Shape.rowMajor_val_one, Shape.rowMajor_val_two]
  show p.val = p.val * 1 + 0
  omega

/-- One step at row p: the running value plus the sum over the block's 1024 rows q of exp (2 · ⟨a_p, b_q⟩). -/
theorem pay2_apply (a : Vec Ideal S2048x256 .f32) (b : Vec Ideal S1024x256 .f32) (s : Vec Ideal S2048x1 .f32) (p : Fin 2048) :
    k0_pay2 (F := Ideal) a b s (ix2 p 0)
      = s (ix2 p 0) + ∑ q : Fin 1024, Ideal.exp ((∑ k : Fin 256, a (ix2 p k) * b (ix2 q k)) * 2) := by
  unfold k0_pay2
  simp only [shapeCast_self]
  rw [addf_apply]
  refine congrArg (s (ix2 p 0) + ·) ?_
  refine (column_apply _ p).trans ?_
  refine (rowsum_apply _ _ _ p).trans ?_
  refine Finset.sum_congr rfl fun q _ => ?_
  refine (expo_apply _ (ix2 p q)).trans ?_
  rw [scores_apply]

/-- Region 1's reset column is region 0's. -/
theorem k1_pay1_eq : k1_pay1 (F := Ideal) = k0_pay1 (F := Ideal) := rfl

/-- Region 1's step is region 0's. -/
theorem k1_pay2_eq (a : Vec Ideal S2048x256 .f32) (b : Vec Ideal S1024x256 .f32) (s : Vec Ideal S2048x1 .f32) :
    k1_pay2 (F := Ideal) a b s = k0_pay2 (F := Ideal) a b s := rfl

/-- The reset column of region 1 is zero at every entry. -/
theorem pay1_apply' (i : S2048x1.Idx) : k1_pay1 (F := Ideal) i = 0 :=
  (congrFun k1_pay1_eq i).trans (pay1_apply i)

/-- One step of region 1 at row p. -/
theorem pay2_apply' (a : Vec Ideal S2048x256 .f32) (b : Vec Ideal S1024x256 .f32) (s : Vec Ideal S2048x1 .f32) (p : Fin 2048) :
    k1_pay2 (F := Ideal) a b s (ix2 p 0)
      = s (ix2 p 0) + ∑ q : Fin 1024, Ideal.exp ((∑ k : Fin 256, a (ix2 p k) * b (ix2 q k)) * 2) :=
  (congrFun (k1_pay2_eq a b s) (ix2 p 0)).trans (pay2_apply a b s p)

end Cert.KStep

end
-- ==== Proof.Spec.lean ====
/-
  The denominators of the contrastive loss, index by index on the extended reals.

  For two arrays of 4096 rows of 256 entries (the normalised embeddings of the two views), row `p` of the first view is
  compared with every row `q` of the second: `dot` is the inner product of the two rows, `cross` the sum over `q` of
  `exp (2 · dot)` (the similarity divided by the temperature 1/2), and `den` lists the 8192 denominators: the first
  4096 compare a row of the first view with the second view, the last 4096 a row of the second view with the first.
-/
import Idealize.ShloMosaic.PureOps.Ideal
import Idealize.ShloMosaic.Lib.ValueIdx

noncomputable section

namespace Cert.Spec

open Idealize.ShloMosaic Idealize.ShloMosaic.ValueIdx

/-- An array of 4096 rows of 256 extended reals. -/
abbrev Mat : Type := FVec Ideal (⟨2, ![4096, 256]⟩ : Shape) .f32

/-- The inner product of row `p` of `za` with row `q` of `zb`. -/
def dot (za zb : Mat) (p q : Fin 4096) : EReal := ∑ k : Fin 256, za (ix2 p k) * zb (ix2 q k)

/-- Row `p` of `za` against every row of `zb`: the sum of `exp (2 · dot)`. -/
def cross (za zb : Mat) (p : Fin 4096) : EReal := ∑ q : Fin 4096, Ideal.exp (dot za zb p q * 2)

/-- The 8192 denominators: rows of the first view against the second view, then rows of the second against the first. -/
def den (zi zj : Mat) (r : Fin 8192) : EReal :=
  if h : r.val < 4096 then cross zi zj ⟨r.val, h⟩ else cross zj zi ⟨r.val - 4096, by omega⟩

end Cert.Spec

end
-- ==== Proof.KValue0.lean ====
/-
  The output array of the first cross-sum region, read row by row on the extended reals.

  The region walks a 2 × 4 grid. At point t = 4·I + j it holds rows [2048·I, 2048·I + 2048) of the first operand and rows
  [1024·j, 1024·j + 1024) of the second, and adds to the running column, at row p, the sum over the tile's 1024 rows q of
  exp (2 · ⟨row 2048·I + p of the first, row 1024·j + q of the second⟩). The column starts from zero where j = 0 and is
  written to rows [2048·I, 2048·I + 2048) of the output where j = 3. Four tiles of 1024 rows are the second operand's 4096
  rows, so what is written at row p is the whole sum over the second operand's rows, and the two row blocks are the array.
-/
import proofs.«139026_j64518998721097_1_alg».proof.Proof.KI.Data
import proofs.«139026_j64518998721097_1_alg».proof.Proof.KStep
import proofs.«139026_j64518998721097_1_alg».proof.Proof.Spec
import Idealize.ShloMosaic.Lib.Pipeline.Value
import Mathlib.Algebra.BigOperators.Fin
import Mathlib.Data.Fintype.BigOperators
import Mathlib.Logic.Equiv.Fin.Basic

noncomputable section

namespace Cert.KValue0

open Cert.KernelIdeal Cert.KernelIdeal.Gen Cert.KernelIdeal.Hand
open Idealize.ShloMosaic Idealize.ShloMosaic.TcCoe Idealize.ShloMosaic.ValueIdx
open scoped BigOperators

/-! ## The printed index maps over the grid -/

/-- At point t the first operand's block is row block t / 4, the second operand's is tile t % 4, the output's is row
    block t / 4; none moves along the columns. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-! ## One tile's contribution, and the four tiles together -/

/-- Row 2048·I + p of `za` against the 1024 rows of tile j of `zb`. -/
def tile (za zb : Cert.Spec.Mat) (I : Fin 2) (j : Fin 4) (p : Fin 2048) : EReal :=
  ∑ q : Fin 1024, Ideal.exp (Cert.Spec.dot za zb ⟨2048 * I.val + p.val, by omega⟩ ⟨1024 * j.val + q.val, by omega⟩ * 2)

/-- A sum over 4096 rows is the sum over four tiles of the sums over each tile's 1024 rows. -/
theorem sum_tiles (f : Fin 4096 → EReal) :
    ∑ q : Fin 4096, f q = ∑ j : Fin 4, ∑ q : Fin 1024, f ⟨1024 * j.val + q.val, by omega⟩ := by
  refine Eq.trans ?_ (Fintype.sum_prod_type' (fun (j : Fin 4) (q : Fin 1024) => f ⟨1024 * j.val + q.val, by omega⟩))
  refine (Fintype.sum_equiv (finProdFinEquiv (m := 4) (n := 1024)) _ _ fun x => ?_).symm
  refine congrArg f (Fin.ext ?_)
  show 1024 * x.1.val + x.2.val = x.2.val + 1024 * x.1.val
  omega

/-- The whole cross sum at row 2048·I + p is the four tiles' contributions added up. -/
theorem cross_tiles (za zb : Cert.Spec.Mat) (I : Fin 2) (p : Fin 2048) (r : Fin 4096) (hr : r.val = 2048 * I.val + p.val) :
    Cert.Spec.cross za zb r = ∑ j : Fin 4, tile za zb I j p := by
  obtain ⟨r, hlt⟩ := r
  dsimp only at hr
  subst hr
  exact sum_tiles fun q => Ideal.exp (Cert.Spec.dot za zb _ q * 2)

/-! ## The operands' blocks at a grid point, read at an entry -/

section Region

variable (V : (c : Dev nD) → (b : Ref sig .tc) → Buf (Elt Ideal) ((c : Thread nD τ).loc b))

/-- Entry (p, k) of the first operand's block at point t is entry (2048·(t / 4) + p, k) of the operand. -/
theorem ablk_apply (c : Dev nD) (t : Fin cfg0.N) (p : Fin 2048) (k : Fin 256) (r : Fin 4096)
    (hr : r.val = 2048 * (t.val / 4) + p.val) :
    ablk0 (F := Ideal) V c t (ix2 p k) = (V c main_v4 : Cert.Spec.Mat) (ix2 r k) := by
  obtain ⟨e0, e1, -⟩ := idx_facts t
  show V c main_v4 (((cfg0.win 0).blk t).view.emb (ix2 p k)) = V c main_v4 (ix2 r k)
  refine congrArg (V c main_v4) ?_
  funext a
  apply Fin.ext
  match a with
  | ⟨0, _⟩ => show win0_0.index t (0 : Fin 2) * 2048 + 1 * p.val = r.val; omega
  | ⟨1, _⟩ => show win0_0.index t (1 : Fin 2) * 256 + 1 * k.val = k.val; omega

/-- Entry (q, k) of the second operand's tile at point t is entry (1024·(t % 4) + q, k) of the operand. -/
theorem bblk_apply (c : Dev nD) (t : Fin cfg0.N) (q : Fin 1024) (k : Fin 256) (r : Fin 4096)
    (hr : r.val = 1024 * (t.val % 4) + q.val) :
    bblk0 (F := Ideal) V c t (ix2 q k) = (V c main_v9 : Cert.Spec.Mat) (ix2 r k) := by
  obtain ⟨-, -, e0, e1, -⟩ := idx_facts t
  show V c main_v9 (((cfg0.win 1).blk t).view.emb (ix2 q k)) = V c main_v9 (ix2 r k)
  refine congrArg (V c main_v9) ?_
  funext a
  apply Fin.ext
  match a with
  | ⟨0, _⟩ => show win0_1.index t (0 : Fin 2) * 1024 + 1 * q.val = r.val; omega
  | ⟨1, _⟩ => show win0_1.index t (1 : Fin 2) * 256 + 1 * k.val = k.val; omega

/-! ## One step, and the four steps of a row of the grid -/

/-- The step at point t = 4·I + j adds tile j's contribution for row block I to the running column. -/
theorem step_apply (c : Dev nD) (t : Fin cfg0.N) (I : Fin 2) (j : Fin 4) (hI : t.val / 4 = I.val) (hj : t.val % 4 = j.val)
    (s : Vec Ideal S2048x1 .f32) (p : Fin 2048) :
    k0_pay2 (F := Ideal) (ablk0 V c t) (bblk0 V c t) s (ix2 p 0)
      = s (ix2 p 0) + tile (V c main_v4) (V c main_v9) I j p := by
  refine (Cert.KStep.pay2_apply (ablk0 V c t) (bblk0 V c t) s p).trans ?_
  refine congrArg (s (ix2 p 0) + ·) ?_
  unfold tile Cert.Spec.dot
  refine Finset.sum_congr rfl fun q _ => ?_
  refine congrArg (fun x => Ideal.exp (x * 2)) ?_
  refine Finset.sum_congr rfl fun k _ => ?_
  exact congrArg₂ (· * ·)
    (ablk_apply V c t p k ⟨2048 * I.val + p.val, by omega⟩ (by show 2048 * I.val + p.val = _; omega))
    (bblk_apply V c t q k ⟨1024 * j.val + q.val, by omega⟩ (by show 1024 * j.val + q.val = _; omega))

/-- Where a row of the grid begins the column is tile 0's contribution alone: the step starts from the zero column. -/
theorem acc_first_apply (c : Dev nD) (n : ℕ) (h : n < cfg0.N) (h0 : n % 4 = 0) (I : Fin 2) (hI : n / 4 = I.val)
    (p : Fin 2048) :
    acc0 (F := Ideal) V c n h (ix2 p 0) = tile (V c main_v4) (V c main_v9) I 0 p := by
  refine (congrFun (acc0_first V c ⟨n, h⟩ h0) (ix2 p 0)).trans ?_
  refine (step_apply V c ⟨n, h⟩ I 0 hI h0 _ p).trans ?_
  rw [Cert.KStep.pay1_apply, zero_add]

/-- At any other point the column is what the point before left plus this point's tile. -/
theorem acc_next_apply (c : Dev nD) (n : ℕ) (h : n + 1 < cfg0.N) (hne : ¬(n + 1) % 4 = 0) (I : Fin 2) (j : Fin 4)
    (hI : (n + 1) / 4 = I.val) (hj : (n + 1) % 4 = j.val) (p : Fin 2048) :
    acc0 (F := Ideal) V c (n + 1) h (ix2 p 0)
      = acc0 (F := Ideal) V c n (Nat.lt_of_succ_lt h) (ix2 p 0) + tile (V c main_v4) (V c main_v9) I j p := by
  have e : acc0 (F := Ideal) V c (n + 1) h
      = k0_pay2 (ablk0 V c ⟨n + 1, h⟩) (bblk0 V c ⟨n + 1, h⟩) (acc0 V c n (Nat.lt_of_succ_lt h)) := if_neg hne
  refine (congrFun e (ix2 p 0)).trans ?_
  exact step_apply V c ⟨n + 1, h⟩ I j hI hj _ p

/-- At the last point of row I of the grid the column holds, at row p, the four tiles' contributions added up. -/
theorem acc_last_apply (c : Dev nD) (t : Fin cfg0.N) (h3 : t.val % 4 = 3) (I : Fin 2) (hI : t.val / 4 = I.val)
    (p : Fin 2048) :
    acc0 (F := Ideal) V c t.val t.isLt (ix2 p 0) = ∑ j : Fin 4, tile (V c main_v4) (V c main_v9) I j p := by
  obtain ⟨t, ht⟩ := t
  dsimp only at h3 hI ⊢
  obtain ⟨n, rfl⟩ : ∃ n, t = n + 1 + 1 + 1 := ⟨t - 3, by omega⟩
  rw [acc_next_apply V c (n + 1 + 1) ht (by omega) I 3 (by omega) (by show _ = 3; omega) p,
    acc_next_apply V c (n + 1) _ (by omega) I 2 (by omega) (by show _ = 2; omega) p,
    acc_next_apply V c n _ (by omega) I 1 (by omega) (by show _ = 1; omega) p,
    acc_first_apply V c n _ (by omega) I (by omega) p,
    Fin.sum_univ_four]

/-! ## From the two row blocks to the array -/

/-- What the region leaves in the output array: at row r, the cross sum of row r. -/
def rows (c : Dev nD) : S4096x1.Idx → EReal := fun i => Cert.Spec.cross (V c main_v4) (V c main_v9) (i 0)

/-- What a point that writes its block back writes is that block of `rows`: the point is the last of its row of the grid, its
    column holds the four tiles' sum, and row p of output block I is row 2048·I + p of the array. -/
theorem flushed_eq (c : Dev nD) (t : Fin cfg0.N) (hf : (cfg0.win 2).flush t = true) :
    (dat0 (F := Ideal) V c).flushed 2 t = ((cfg0.win 2).blk t).view.read (Elt Ideal) (rows V c) := by
  have h3 : t.val % 4 = 3 := (flush0_2 t).mp hf
  have hN : cfg0.N = 8 := N_0
  have hI : t.val / 4 < 2 := by have := t.isLt; omega
  obtain ⟨-, -, -, -, e0, e1⟩ := idx_facts t
  show (cfg0.win 2).cut (grid0.coords t) ((dat0 V c).after 2 t) = _
  rw [after0_2]
  funext y
  obtain ⟨p, z, rfl⟩ : ∃ (p : Fin 2048) (z : Fin 1), y = (ix2 p z : S2048x1.Idx) :=
    ⟨y 0, y 1, eq_ix2 (n0 := 2048) (n1 := 1) y⟩
  obtain rfl : z = 0 := Subsingleton.elim _ _
  show acc0 V c t.val t.isLt (ix2 p 0) = rows V c (((cfg0.win 2).blk t).view.emb (ix2 p 0))
  refine (acc_last_apply V c t h3 ⟨t.val / 4, hI⟩ rfl p).trans ?_
  refine (cross_tiles (V c main_v4) (V c main_v9) ⟨t.val / 4, hI⟩ p _ ?_).symm
  show win0_2.index t (0 : Fin 2) * 2048 + 1 * p.val = 2048 * (t.val / 4) + p.val
  omega

/-- A row of the array is in point t's output block iff each coordinate is in the block's range on its axis. -/
theorem mem_blk (t : Fin cfg0.N) (i : S4096x1.Idx) :
    i ∈ ((cfg0.win 2).blk t).view.set
      ↔ ∀ a : Fin 2, win0_2.index t a * S2048x1.size a ≤ (i a).val
          ∧ (i a).val < win0_2.index t a * S2048x1.size a + S2048x1.size a := by
  show i ∈ ((View.whole main_v10).slice (win0_2.rect t)).set ↔ _
  rw [View.set_slice_whole, Rect.mem_set_unit]
  exact Iff.rfl

/-- Every row of the array is written: row r by the last point of row r / 2048 of the grid. -/
theorem cover (i : S4096x1.Idx) :
    ∃ t : Fin cfg0.N, (cfg0.win 2).flush t = true ∧ i ∈ ((cfg0.win 2).blk t).view.set := by
  have hN : cfg0.N = 8 := N_0
  have hi0 : (i 0).val < 4096 := (i 0).isLt
  have hi1 : (i 1).val < 1 := (i 1).isLt
  obtain ⟨t, tv⟩ : ∃ t : Fin cfg0.N, t.val = 4 * ((i 0).val / 2048) + 3 := ⟨⟨_, by omega⟩, rfl⟩
  obtain ⟨-, -, -, -, e0, e1⟩ := idx_facts t
  refine ⟨t, (flush0_2 t).mpr (by omega), ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1 ≤ (i 1).val ∧ (i 1).val < win0_2.index t (1 : Fin 2) * 1 + 1
    omega

/-- The output array after the region: row r holds the sum over q of exp (2 · ⟨row r of the first operand, row q of the second⟩). -/
theorem out_apply (c : Dev nD) (r : Fin 4096) :
    ((dat0 (F := Ideal) V c).arrAt 2 cfg0.N : S4096x1.Idx → EReal) (ix2 r 0)
      = Cert.Spec.cross (V c main_v4) (V c main_v9) r :=
  congrFun ((dat0 (F := Ideal) V c).arrAt_eq_of_cover 2 (rows V c) (flushed_eq V c) cover) (ix2 r 0)

end Region

end Cert.KValue0

end
-- ==== Proof.KValue1.lean ====
/-
  The value of the second cross-sum region's output array, on the extended reals.

  The region walks a 2 × 4 grid. At point t it holds rows [2048·(t / 4), 2048·(t / 4) + 2048) of the row operand and
  rows [1024·(t % 4), 1024·(t % 4) + 1024) of the column operand, and adds to the scratch column, at row p, the sum over
  the tile's 1024 rows q of exp (2 · ⟨row of the first, row of the second⟩). The column starts from zero where a row of the
  grid begins, so after the fourth tile it holds at row p the sum over all 4096 rows of the column operand; that is the
  moment it is written to rows [2048·(t / 4), 2048·(t / 4) + 2048) of the output. The two row blocks cover the output, so
  the output ends as that sum at every row.
-/
import proofs.«139026_j64518998721097_1_alg».proof.Proof.KI.Data
import proofs.«139026_j64518998721097_1_alg».proof.Proof.KStep
import proofs.«139026_j64518998721097_1_alg».proof.Proof.Spec
import Idealize.ShloMosaic.Lib.Pipeline.Value
import Idealize.ShloMosaic.Lib.ValueIdx
import Mathlib.Algebra.BigOperators.Fin

noncomputable section

namespace Cert.KValue1

open Cert.KernelIdeal Cert.KernelIdeal.Gen Cert.KernelIdeal.Hand Idealize.ShloMosaic Idealize.ShloMosaic.TcCoe Idealize.ShloMosaic.ValueIdx
open scoped BigOperators

variable (V : (c : Dev nD) → (b : Ref sig .tc) → Buf (Elt Ideal) ((c : Thread nD τ).loc b))

/-! ## Where the blocks sit -/

/-- The block indices of the three windows over the grid: the row operand and the output move with the row block `t / 4`,
    the column operand with the tile `t % 4`; none moves along the second axis. -/
theorem idx_facts : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0)

/-- The two operands as the region finds them, as matrices of 4096 rows. -/
abbrev za (c : Dev nD) : Cert.Spec.Mat := V c main_v9
abbrev zb (c : Dev nD) : Cert.Spec.Mat := V c main_v4

/-- Row `p` of the row operand's block at point `t` is row `2048·(t / 4) + p` of the operand. -/
theorem ablk_apply (c : Dev nD) (t : Fin cfg1.N) (p : Fin 2048) (k : Fin 256) (r : Fin 4096)
    (hr : r.val = 2048 * (t.val / 4) + p.val) :
    ablk1 V c t (ix2 p k) = za V c (ix2 r k) := by
  obtain ⟨e0, e1, -, -, -, -⟩ := idx_facts t
  unfold ablk1 iblk1
  rw [View.read_apply]
  show V c main_v9 (((cfg1.win 0).blk t).view.emb (ix2 p k)) = V c main_v9 (ix2 r k)
  congr 1
  funext a
  apply Fin.ext
  match a with
  | ⟨0, _⟩ => show win1_0.index t (0 : Fin 2) * 2048 + 1 * p.val = r.val; omega
  | ⟨1, _⟩ => show win1_0.index t (1 : Fin 2) * 256 + 1 * k.val = k.val; omega

/-- Row `q` of the column operand's tile at point `t` is row `1024·(t % 4) + q` of the operand. -/
theorem bblk_apply (c : Dev nD) (t : Fin cfg1.N) (q : Fin 1024) (k : Fin 256) (r : Fin 4096)
    (hr : r.val = 1024 * (t.val % 4) + q.val) :
    bblk1 V c t (ix2 q k) = zb V c (ix2 r k) := by
  obtain ⟨-, -, e2, e3, -, -⟩ := idx_facts t
  unfold bblk1 iblk1
  rw [View.read_apply]
  show V c main_v4 (((cfg1.win 1).blk t).view.emb (ix2 q k)) = V c main_v4 (ix2 r k)
  congr 1
  funext a
  apply Fin.ext
  match a with
  | ⟨0, _⟩ => show win1_1.index t (0 : Fin 2) * 1024 + 1 * q.val = r.val; omega
  | ⟨1, _⟩ => show win1_1.index t (1 : Fin 2) * 256 + 1 * k.val = k.val; omega

/-! ## One tile's contribution -/

/-- What one step adds at row `p`: the sum over the tile's rows `q` of exp (2 · ⟨a_p, b_q⟩). -/
def tile (a : Vec Ideal S2048x256 .f32) (b : Vec Ideal S1024x256 .f32) (p : Fin 2048) : EReal :=
  ∑ q : Fin 1024, Ideal.exp ((∑ k : Fin 256, a (ix2 p k) * b (ix2 q k)) * 2)

theorem step_apply (a : Vec Ideal S2048x256 .f32) (b : Vec Ideal S1024x256 .f32) (s : Vec Ideal S2048x1 .f32) (p : Fin 2048) :
    k1_pay2 (F := Ideal) a b s (ix2 p 0) = s (ix2 p 0) + tile a b p :=
  Cert.KStep.pay2_apply' a b s p

/-- The summand of the specification: row `r` of the first operand against row `q` of the second. -/
def term (c : Dev nD) (r q : Fin 4096) : EReal := Ideal.exp (Cert.Spec.dot (za V c) (zb V c) r q * 2)

/-- At point `t` the tile's contribution at row `p` is the specification's summands over rows
    `1024·(t % 4) … 1024·(t % 4) + 1023` of the column operand, at row `2048·(t / 4) + p` of the row operand. -/
theorem tile_eq (c : Dev nD) (t : Fin cfg1.N) (p : Fin 2048) (r : Fin 4096) (hr : r.val = 2048 * (t.val / 4) + p.val) :
    tile (ablk1 V c t) (bblk1 V c t) p
      = ∑ q : Fin 1024, term V c r ⟨1024 * (t.val % 4) + q.val, by have := q.isLt; omega⟩ := by
  unfold tile
  refine Finset.sum_congr rfl fun q _ => ?_
  unfold term Cert.Spec.dot
  refine congrArg (fun x => Ideal.exp (x * 2)) ?_
  refine Finset.sum_congr rfl fun k _ => ?_
  rw [ablk_apply V c t p k r hr, bblk_apply V c t q k ⟨1024 * (t.val % 4) + q.val, by have := q.isLt; omega⟩ rfl]

/-! ## The scratch column after the tiles of a row of the grid -/

theorem acc_congr (c : Dev nD) (n n' : ℕ) (h : n < cfg1.N) (h' : n' < cfg1.N) (e : n = n') :
    acc1 V c n h = acc1 V c n' h' := by
  subst e; rfl

/-- The contribution of point `n` at row `p` (zero past the grid, where it is never consulted). -/
def tileAt (c : Dev nD) (p : Fin 2048) (n : ℕ) : EReal :=
  if h : n < cfg1.N then tile (ablk1 V c ⟨n, h⟩) (bblk1 V c ⟨n, h⟩) p else 0

/-- After tile `j` of row block `I` the column holds at row `p` the contributions of tiles `0 … j`. -/
theorem acc_run (c : Dev nD) (I : ℕ) (p : Fin 2048) : ∀ (j : ℕ) (_ : j < 4) (h : 4 * I + j < cfg1.N),
    acc1 V c (4 * I + j) h (ix2 p 0) = ∑ s ∈ Finset.range (j + 1), tileAt V c p (4 * I + s)
  | 0, _, h => by
    have e := acc1_first V c ⟨4 * I + 0, h⟩ (by show (4 * I + 0) % 4 = 0; omega)
    refine (congrFun e (ix2 p 0)).trans ?_
    rw [step_apply, Cert.KStep.pay1_apply', zero_add, Finset.sum_range_one]
    unfold tileAt
    rw [dif_pos h]
  | j + 1, hj, h => by
    have e := acc1_next V c ⟨4 * I + (j + 1), h⟩ (by show ¬(4 * I + (j + 1)) % 4 = 0; omega)
    refine (congrFun e (ix2 p 0)).trans ?_
    rw [step_apply, Finset.sum_range_succ _ (j + 1)]
    have hprev : 4 * I + j < cfg1.N := Nat.lt_of_succ_lt h
    rw [show acc1 V c ((⟨4 * I + (j + 1), h⟩ : Fin cfg1.N).val - 1) (Nat.lt_of_le_of_lt (Nat.sub_le _ _) (⟨4 * I + (j + 1), h⟩ : Fin cfg1.N).isLt)
        = acc1 V c (4 * I + j) hprev from acc_congr V c _ _ _ _ (by show 4 * I + (j + 1) - 1 = 4 * I + j; omega)]
    rw [acc_run c I p j (Nat.lt_of_succ_lt hj) hprev]
    unfold tileAt
    rw [dif_pos h]

/-! ## Four tiles of 1024 rows are the 4096 rows -/

theorem sum_tiles (f : Fin 4096 → EReal) :
    ∑ q' : Fin 4096, f q' = ∑ s : Fin 4, ∑ q : Fin 1024, f ⟨1024 * s.val + q.val, by have := s.isLt; have := q.isLt; omega⟩ := by
  rw [← Equiv.sum_comp (finProdFinEquiv : Fin 4 × Fin 1024 ≃ Fin 4096) f, Fintype.sum_prod_type]
  refine Finset.sum_congr rfl fun s _ => Finset.sum_congr rfl fun q _ => congrArg f (Fin.ext ?_)
  show q.val + 1024 * s.val = 1024 * s.val + q.val
  omega

/-- At the last tile of row block `t / 4` the column holds, at row `p`, the specification's sum at row `2048·(t / 4) + p`. -/
theorem acc_last_apply (c : Dev nD) (t : Fin cfg1.N) (h3 : t.val % 4 = 3) (p : Fin 2048) (r : Fin 4096)
    (hr : r.val = 2048 * (t.val / 4) + p.val) :
    acc1 V c t.val t.isLt (ix2 p 0) = Cert.Spec.cross (za V c) (zb V c) r := by
  have hN : cfg1.N = 8 := N_1
  have ht : t.val < 8 := lt_of_lt_of_eq t.isLt hN
  have hrun : 4 * (t.val / 4) + 3 < cfg1.N := by omega
  rw [acc_congr V c t.val (4 * (t.val / 4) + 3) t.isLt hrun (by omega), acc_run V c (t.val / 4) p 3 (by omega) hrun]
  show _ = ∑ q' : Fin 4096, term V c r q'
  rw [sum_tiles, Finset.sum_range]
  refine Finset.sum_congr rfl fun s _ => ?_
  have hs : s.val < 4 := s.isLt
  have hpt : 4 * (t.val / 4) + s.val < cfg1.N := by omega
  unfold tileAt
  rw [dif_pos hpt, tile_eq V c ⟨4 * (t.val / 4) + s.val, hpt⟩ p r (by show r.val = 2048 * ((4 * (t.val / 4) + s.val) / 4) + p.val; omega)]
  refine Finset.sum_congr rfl fun q _ => congrArg (term V c r) (Fin.ext ?_)
  show 1024 * ((4 * (t.val / 4) + s.val) % 4) + q.val = 1024 * s.val + q.val
  omega

/-! ## From the blocks to the array -/

/-- The output the region computes, as one function of the row. -/
def G (c : Dev nD) : S4096x1.Idx → EReal := fun i => Cert.Spec.cross (za V c) (zb V c) (i 0)

/-- What a point that writes back writes is its block of `G`. -/
theorem flushed_eq (c : Dev nD) (t : Fin cfg1.N) (hf : (cfg1.win 2).flush t = true) :
    (dat1 (F := Ideal) V c).flushed 2 t = ((cfg1.win 2).blk t).view.read (Elt Ideal) (G V c) := by
  have h3 : t.val % 4 = 3 := (flush1_2 t).mp hf
  obtain ⟨-, -, -, -, e4, e5⟩ := idx_facts t
  show (cfg1.win 2).cut (grid1.coords t) ((dat1 V c).after 2 t) = _
  rw [after1_2]
  funext y
  rw [View.read_apply]
  show acc1 V c t.val t.isLt ((cfg1.win 2).xinj (grid1.coords t) y) = G V c (((cfg1.win 2).blk t).view.emb y)
  have hy : ((cfg1.win 2).xinj (grid1.coords t) y : S2048x1.Idx) = ix2 (⟨(y 0).val, (y 0).isLt⟩ : Fin 2048) (0 : Fin 1) := by
    funext a
    match a with
    | ⟨0, _⟩ => rfl
    | ⟨1, _⟩ => exact Subsingleton.elim (α := Fin 1) _ _
  rw [hy]
  unfold G
  refine acc_last_apply V c t h3 _ _ ?_
  show win1_2.index t (0 : Fin 2) * 2048 + 1 * (y 0).val = 2048 * (t.val / 4) + (y 0).val
  omega

/-- An index of the output is in point `t`'s block iff each coordinate is in the block's range on its axis. -/
theorem mem_blk (t : Fin cfg1.N) (i : S4096x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v12).slice (win1_2.rect t)).set ↔ _
  rw [View.set_slice_whole, Rect.mem_set_unit]
  exact Iff.rfl

/-- Every row of the output is in the block some point writes back: row `r` in that of the last tile of row block `r / 2048`. -/
theorem cover (i : S4096x1.Idx) : ∃ t : Fin cfg1.N, (cfg1.win 2).flush t = true ∧ i ∈ ((cfg1.win 2).blk t).view.set := by
  have hN : cfg1.N = 8 := N_1
  have hi0 : (i 0).val < 4096 := (i 0).isLt
  have hi1 : (i 1).val < 1 := (i 1).isLt
  have ht : 4 * ((i 0).val / 2048) + 3 < cfg1.N := by omega
  refine ⟨⟨4 * ((i 0).val / 2048) + 3, ht⟩, (flush1_2 _).mpr (by show (4 * ((i 0).val / 2048) + 3) % 4 = 3; omega), ?_⟩
  obtain ⟨-, -, -, -, e4, e5⟩ := idx_facts ⟨4 * ((i 0).val / 2048) + 3, ht⟩
  have e4' : win1_2.index ⟨4 * ((i 0).val / 2048) + 3, ht⟩ (0 : Fin 2) = (4 * ((i 0).val / 2048) + 3) / 4 := e4
  rw [mem_blk]
  intro a
  match a with
  | ⟨0, _⟩ =>
    show win1_2.index ⟨4 * ((i 0).val / 2048) + 3, ht⟩ (0 : Fin 2) * 2048 ≤ (i 0).val ∧ (i 0).val < win1_2.index ⟨4 * ((i 0).val / 2048) + 3, ht⟩ (0 : Fin 2) * 2048 + 2048
    omega
  | ⟨1, _⟩ =>
    show win1_2.index ⟨4 * ((i 0).val / 2048) + 3, ht⟩ (1 : Fin 2) * 1 ≤ (i 1).val ∧ (i 1).val < win1_2.index ⟨4 * ((i 0).val / 2048) + 3, ht⟩ (1 : Fin 2) * 1 + 1
    omega

/-- The output array after the region is `G`. -/
theorem final (c : Dev nD) : (dat1 (F := Ideal) V c).arrAt 2 cfg1.N = G V c :=
  (dat1 (F := Ideal) V c).arrAt_eq_of_cover 2 (G V c) (flushed_eq V c) cover

/-- The output array after the region: row r holds the sum over q of exp (2 · ⟨row r of the first operand, row q of the second⟩). -/
theorem out_apply (c : Dev nD) (r : Fin 4096) :
    ((dat1 (F := Ideal) V c).arrAt 2 cfg1.N : S4096x1.Idx → EReal) (ix2 r 0)
      = Cert.Spec.cross (V c main_v9) (V c main_v4) r :=
  congrFun (final V c) (ix2 r 0)

end Cert.KValue1

end
-- ==== Proof.RefDen.lean ====
/-
  The denominators of the reference program, read row by row on the extended reals.

  The reference stacks the two normalised views into one array of 8192 rows, multiplies it by its own transpose,
  divides every inner product by one half, exponentiates, keeps the entries whose row and column lie in different
  halves (zero elsewhere) and sums each row. Dividing by one half is doubling on every extended real, a masked
  entry contributes nothing to a sum, and the kept half of row r runs over the rows of the other view: so row r of
  the result is the sum over q of exp (2 · ⟨row r of its view, row q of the other view⟩), the r-th denominator.
  No finiteness is used: sums over the extended reals may be split and have their zero terms dropped.
-/
import proofs.«139026_j64518998721097_1_alg».proof.Proof.Gen.ReferenceIdeal.Read
import proofs.«139026_j64518998721097_1_alg».proof.Proof.Spec
import Idealize.ShloMosaic.Lib.StableHlo.Predicate
import Mathlib.Algebra.BigOperators.Fin

noncomputable section

namespace Cert.RefDen

open Cert.ReferenceIdeal Cert.ReferenceIdeal.Gen Cert.ReferenceIdeal.Read Idealize.ShloMosaic Idealize.ShloMosaic.ValueIdx
open scoped BigOperators

/-- The real number two, as an extended real, is the extended real two. -/
theorem coe_two : ((2 : ℝ) : EReal) = 2 := rfl

/-- The word 0x3F000000 denotes one half. -/
theorem ofBits_half : Ideal.ofBits .f32 0x3F000000#32 = ((1 / 2 : ℝ) : EReal) := by
  simp [Ideal.ofBits, Ideal.ieee, -EReal.coe_mul]; norm_num

/-- The word 0x40000000 denotes two. -/
theorem ofBits_two : Ideal.ofBits .f32 0x40000000#32 = 2 := by
  rw [← coe_two]
  simp [Ideal.ofBits, Ideal.ieee, -EReal.coe_mul]; norm_num

/-- Dividing an extended real by one half doubles it, at the infinities too. -/
theorem div_half (x : EReal) : Ideal.div x (Ideal.ofBits .f32 0x3F000000#32) = x * 2 := by
  rw [ofBits_half, Ideal.div_coe (by norm_num), ← coe_two]
  norm_num

/-- Dividing by the literal 1/2 is multiplying by the literal 2, on every extended real, elementwise on a vector of 8192. -/
theorem half_div (v : FVec Ideal S8192 .f32) :
    Host.divf v (broadcastInDim S8192 ![] bcast_S_S8192 (constant (F := Ideal) S_ .f32 0x3F000000#32))
      = mulf v (broadcastInDim S8192 ![] bcast_S_S8192 (constant (F := Ideal) S_ .f32 0x40000000#32)) := by
  funext i
  have e1 : broadcastInDim S8192 ![] bcast_S_S8192 (constant (F := Ideal) S_ .f32 0x3F000000#32) i = Ideal.ofBits .f32 0x3F000000#32 :=
    broadcastInDim_apply _ bcast_S_S8192 _ i (fun a => a.elim0) (fun a => a.elim0)
  have e2 : broadcastInDim S8192 ![] bcast_S_S8192 (constant (F := Ideal) S_ .f32 0x40000000#32) i = Ideal.ofBits .f32 0x40000000#32 :=
    broadcastInDim_apply _ bcast_S_S8192 _ i (fun a => a.elim0) (fun a => a.elim0)
  show Ideal.div (v i) _ = v i * _
  rw [e1, e2, div_half, ofBits_two]

/-! ## The stacked array -/

/-- Entry (r, k) of the two views stacked: row r of the first view for r below 4096, row r − 4096 of the second from there on. -/
def rep (zi zj : Cert.Spec.Mat) (r : Fin 8192) (k : Fin 256) : EReal :=
  if h : r.val < 4096 then zi (ix2 ⟨r.val, h⟩ k) else zj (ix2 ⟨r.val - 4096, by omega⟩ k)

/-- The concatenation of the two normalised arrays, read at an entry. -/
theorem v10_apply (x0 x1 : (⟨S4096x256, .f32⟩ : BufTy).Contents (Elt Ideal)) (r : Fin 8192) (k : Fin 256) :
    val_main_v10 (F := Ideal) x0 x1 (ix2 r k) = rep (val_main_v4 (F := Ideal) x0) (val_main_v9 (F := Ideal) x1) r k := by
  unfold val_main_v10
  generalize val_main_v4 (F := Ideal) x0 = zi
  generalize val_main_v9 (F := Ideal) x1 = zj
  unfold rep
  by_cases h : r.val < 4096
  · rw [dif_pos h]
    exact concatenate_pair_apply_left 0 zi zj concatenates_S4096x256_S4096x256_S8192x256_d0 (ix2 r k) rfl (ix2 ⟨r.val, h⟩ k)
      (fun b => match b with | ⟨0, _⟩ => rfl | ⟨1, _⟩ => rfl)
  · rw [dif_neg h]
    exact concatenate_pair_apply_right 0 zi zj concatenates_S4096x256_S4096x256_S8192x256_d0 (ix2 r k) rfl rfl (ix2 ⟨r.val - 4096, by omega⟩ k)
      (fun b hb => match b, hb with | ⟨0, _⟩, hb => absurd rfl hb | ⟨1, _⟩, _ => rfl)
      (by show r.val - 4096 + 4096 = r.val; omega)

/-- An entry of the stacked array in its first half is the first view's. -/
theorem rep_castAdd (zi zj : Cert.Spec.Mat) (q : Fin 4096) (k : Fin 256) :
    rep zi zj (Fin.castAdd 4096 q) k = zi (ix2 q k) := by
  unfold rep
  rw [dif_pos (show (Fin.castAdd 4096 q).val < 4096 from q.isLt)]
  rfl

/-- An entry of the stacked array in its second half is the second view's. -/
theorem rep_natAdd (zi zj : Cert.Spec.Mat) (q : Fin 4096) (k : Fin 256) :
    rep zi zj (Fin.natAdd 4096 q) k = zj (ix2 q k) := by
  unfold rep
  rw [dif_neg (show ¬ (Fin.natAdd 4096 q).val < 4096 by show ¬ 4096 + q.val < 4096; omega)]
  refine congrArg (fun p : Fin 4096 => zj (ix2 p k)) (Fin.ext ?_)
  show 4096 + q.val - 4096 = q.val
  omega

/-! ## The similarities -/

/-- Entry (r, c) of the stacked array times its transpose: the inner product of rows r and c of the stacked array. -/
theorem v12_apply (x0 x1 : (⟨S4096x256, .f32⟩ : BufTy).Contents (Elt Ideal)) (r c : Fin 8192) :
    val_main_v12 (F := Ideal) x0 x1 (ix2 r c)
      = ∑ k : Fin 256, rep (val_main_v4 (F := Ideal) x0) (val_main_v9 (F := Ideal) x1) r k
          * rep (val_main_v4 (F := Ideal) x0) (val_main_v9 (F := Ideal) x1) c k := by
  rw [val_main_v12_apply]
  refine Finset.sum_congr rfl fun k _ => ?_
  rw [val_main_v11_apply]
  have el : lidx_main_v12 (ix2 r c) k = ix2 r k := funext fun a => match a with | ⟨0, _⟩ => rfl | ⟨1, _⟩ => rfl
  have er : idx_main_v11 (ridx_main_v12 (ix2 r c) k) = ix2 c k := funext fun a => match a with | ⟨0, _⟩ => rfl | ⟨1, _⟩ => rfl
  rw [el, er, v10_apply, v10_apply]

/-! ## The mask -/

/-- A coordinate below 8192, as a 32-bit word, compares below the word 4096 exactly when it is below 4096. -/
theorem lt_word (n : Nat) (hn : n < 8192) :
    IntOp.cmpi .slt (BitVec.ofNat 32 n) 4096#32 = if n < 4096 then 1#1 else 0#1 := by
  have e : (BitVec.ofNat 32 n).toNat = n := by rw [BitVec.toNat_ofNat]; exact Nat.mod_eq_of_lt (by omega)
  have ha : (BitVec.ofNat 32 n).toNat < 2 ^ 31 := by rw [e]; omega
  have hb : (4096#32 : BitVec 32).toNat < 2 ^ 31 := by decide
  have key := StableHlo.Predicate.slt_iff_toNat ha hb
  rw [e] at key
  by_cases h : n < 4096
  · rw [if_pos h]; exact key.2 (by show n < 4096; exact h)
  · rw [if_neg h]; exact eq_zero_of_ne_one fun h1 => h (key.1 h1)

/-- The row bit of the mask: is the row index below 4096? -/
theorem v23_apply (r c : Fin 8192) :
    val_main_v23 (F := Ideal) (ix2 r c) = if r.val < 4096 then 1#1 else 0#1 := by
  rw [val_main_v23_apply, val_main_v19_apply, val_main_v17_apply, val_main_v18_apply, val_main_v16_apply, val_main_c_apply]
  exact lt_word r.val r.isLt

/-- The column bit of the mask: is the column index below 4096? -/
theorem v24_apply (r c : Fin 8192) :
    val_main_v24 (F := Ideal) (ix2 r c) = if c.val < 4096 then 1#1 else 0#1 := by
  rw [val_main_v24_apply, val_main_v22_apply, val_main_v20_apply, val_main_v21_apply, val_main_v16_apply, val_main_c_2_apply]
  exact lt_word c.val c.isLt

/-- The mask keeps entry (r, c) exactly when r and c lie in different halves. -/
theorem v25_apply (r c : Fin 8192) :
    val_main_v25 (F := Ideal) (ix2 r c) = if (r.val < 4096 ↔ c.val < 4096) then 0#1 else 1#1 := by
  rw [val_main_v25_apply, v23_apply, v24_apply]
  by_cases hr : r.val < 4096 <;> by_cases hc : c.val < 4096 <;> simp only [hr, hc, if_true, if_false, iff_true, iff_false, not_true, not_false_iff, true_iff, false_iff] <;> decide

/-! ## The masked exponentials and their row sums -/

/-- Entry (r, c) of the masked array: zero when r and c lie in the same half, otherwise the exponential of twice the
    inner product of rows r and c of the stacked array. -/
theorem v32_apply (x0 x1 : (⟨S4096x256, .f32⟩ : BufTy).Contents (Elt Ideal)) (r c : Fin 8192) :
    val_main_v32 (F := Ideal) x0 x1 (ix2 r c)
      = if (r.val < 4096 ↔ c.val < 4096) then 0
        else Ideal.exp ((∑ k : Fin 256, rep (val_main_v4 (F := Ideal) x0) (val_main_v9 (F := Ideal) x1) r k
          * rep (val_main_v4 (F := Ideal) x0) (val_main_v9 (F := Ideal) x1) c k) * 2) := by
  rw [val_main_v32_apply, v25_apply]
  by_cases h : (r.val < 4096 ↔ c.val < 4096)
  · rw [if_pos h, if_pos h, select_zero, val_main_call2_v1_apply, val_main_call2_v0_apply, val_main_cst_5_apply]
    exact Ideal.ofBits_zero_f32
  · rw [if_neg h, if_neg h, select_one, val_main_v31_apply, val_main_v30_apply, val_main_v29_apply, val_main_cst_4_apply, v12_apply]
    show Ideal.exp (Ideal.div _ (Ideal.ofBits .f32 0x3F000000#32)) = _
    rw [div_half]

/-- Row r of the reference's masked row sums is the r-th denominator. -/
theorem ref_den (x0 x1 : (⟨S4096x256, .f32⟩ : BufTy).Contents (Elt Ideal)) (r : Fin 8192) :
    val_main_v33 (F := Ideal) x0 x1 (ix1 r) = Cert.Spec.den (val_main_v4 (F := Ideal) x0) (val_main_v9 (F := Ideal) x1) r := by
  rw [val_main_v33_apply, val_main_cst_6_apply]
  show Ideal.ofBits .f32 0x00000000#32 + _ = _
  rw [Ideal.ofBits_zero_f32, zero_add]
  have ei : ∀ c : Fin 8192, idx_main_v33 (ix1 r) c = ix2 r c := fun c =>
    funext fun a => match a with | ⟨0, _⟩ => rfl | ⟨1, _⟩ => rfl
  simp only [ei, v32_apply]
  generalize val_main_v4 (F := Ideal) x0 = zi
  generalize val_main_v9 (F := Ideal) x1 = zj
  rw [Fin.sum_univ_add (a := 4096) (b := 4096)]
  unfold Cert.Spec.den
  by_cases h : r.val < 4096
  · -- a row of the first view: the first half of the columns is masked, the second half runs over the second view
    rw [dif_pos h]
    have z : (∑ q : Fin 4096, if (r.val < 4096 ↔ (Fin.castAdd 4096 q).val < 4096) then (0 : EReal)
        else Ideal.exp ((∑ k : Fin 256, rep zi zj r k * rep zi zj (Fin.castAdd 4096 q) k) * 2)) = 0 :=
      Finset.sum_eq_zero fun q _ => if_pos ⟨fun _ => q.isLt, fun _ => h⟩
    rw [z, zero_add]
    unfold Cert.Spec.cross
    refine Finset.sum_congr rfl fun q _ => ?_
    rw [if_neg (fun hh => absurd (hh.1 h) (by show ¬ 4096 + q.val < 4096; omega))]
    refine congrArg (fun s => Ideal.exp (s * 2)) ?_
    unfold Cert.Spec.dot
    refine Finset.sum_congr rfl fun k _ => ?_
    rw [rep_natAdd]
    unfold rep
    rw [dif_pos h]
  · -- a row of the second view: the first half of the columns runs over the first view, the second half is masked
    rw [dif_neg h]
    have z : (∑ q : Fin 4096, if (r.val < 4096 ↔ (Fin.natAdd 4096 q).val < 4096) then (0 : EReal)
        else Ideal.exp ((∑ k : Fin 256, rep zi zj r k * rep zi zj (Fin.natAdd 4096 q) k) * 2)) = 0 :=
      Finset.sum_eq_zero fun q _ => if_pos ⟨fun hh => absurd hh h, fun hh => absurd hh (by show ¬ 4096 + q.val < 4096; omega)⟩
    rw [z, add_zero]
    unfold Cert.Spec.cross
    refine Finset.sum_congr rfl fun q _ => ?_
    rw [if_neg (fun hh => h (hh.2 q.isLt))]
    refine congrArg (fun s => Ideal.exp (s * 2)) ?_
    unfold Cert.Spec.dot
    refine Finset.sum_congr rfl fun k _ => ?_
    rw [rep_castAdd]
    unfold rep
    rw [dif_neg h]

end Cert.RefDen

end
-- ==== Proof.Bridge.lean ====
/-
  From the kernel program's last buffers to the reference's result.

  Both programs end with the same arithmetic on two vectors of 8192 entries: the positive similarities (for each
  row, the inner product of that row of the first normalised array with the same row of the second, listed twice
  and scaled by the inverse temperature) and the denominators. The loss is the mean over the 8192 entries of
  minus the logarithm of exp (similarity) over half the denominator. The two programs differ in two places only.
  The reference divides the similarities by one half where the kernel program doubles them: the same extended
  real. And the reference gets its denominators as the row sums of a masked 8192 × 8192 array of exponentials,
  where the kernel program stacks the two columns its two regions leave; given that entry r of each column is the
  sum over q of exp (2 · ⟨row r of one view, row q of the other⟩), entry r of the stack is the r-th denominator,
  which is what the reference's row sum is. The normalised arrays themselves are written by the same operations in
  both programs, so they are carried as two unopened terms, and so is the shared arithmetic after them.
-/
import proofs.«139026_j64518998721097_1_alg».proof.Proof.KI.Regs
import proofs.«139026_j64518998721097_1_alg».proof.Proof.RefDen
import Idealize.ShloMosaic.Lib.StableHlo.Run
import Idealize.ShloMosaic.Lib.Pipeline.Value

noncomputable section

namespace Cert.Bridge

open Cert.KernelIdeal Cert.KernelIdeal.Gen Cert.KernelIdeal.Hand Idealize.ShloMosaic Idealize.ShloMosaic.TcCoe Idealize.ShloMosaic.ValueIdx

/-! ## The arithmetic the two programs share -/

/-- The inner products of corresponding rows of two arrays of 4096 rows, listed twice: the 8192 positive similarities. -/
def pos (zi zj : FVec Ideal S4096x256 .f32) : FVec Ideal S8192 .f32 :=
  concatenate S8192 0
    [⟨S4096, Host.reduceAdd (F := Ideal) (mulf zi zj) (constant (F := Ideal) S_ .f32 0x00000000#32) reducesTo_S4096x256_S4096_d1 h_S_⟩,
     ⟨S4096, Host.reduceAdd (F := Ideal) (mulf zi zj) (constant (F := Ideal) S_ .f32 0x00000000#32) reducesTo_S4096x256_S4096_d1 h_S_⟩]
    concatenates_S4096_S4096_S8192_d0

/-- From the 8192 scaled positive similarities and the 8192 denominators to the loss: the mean over the rows of
    minus the logarithm of exp (similarity) over half the denominator. -/
def loss (s den : FVec Ideal S8192 .f32) : FVec Ideal S_ .f32 :=
  Host.divf (F := Ideal)
    (Host.reduceAdd (F := Ideal)
      (Host.negf (F := Ideal) (Host.log (F := Ideal) (Host.divf (F := Ideal) (Host.exp (F := Ideal) s)
        (mulf (broadcastInDim S8192 ![] bcast_S_S8192 (constant (F := Ideal) S_ .f32 0x3F000000#32)) den))))
      (constant (F := Ideal) S_ .f32 0x00000000#32) reducesTo_S8192_S_d0 h_S_)
    (constant (F := Ideal) S_ .f32 0x46000000#32)

/-! ## The denominators, entry by entry -/

/-- A column of 4096 entries read as a vector of 4096: entry r of the vector is entry (r, 0) of the column. -/
theorem col_apply (o : FVec Ideal S4096x1 .f32) (r : Fin 4096) :
    shapeCast S4096 o shapeCasts_S4096x1_S4096 (ix1 r) = o (ix2 r 0) :=
  shapeCast_apply o shapeCasts_S4096x1_S4096 (ix1 r) (ix2 r (0 : Fin 1)) (by
    rw [Shape.rowMajor_val_two, Shape.rowMajor_val_one]; show r.val * 1 + 0 = r.val; omega)

/-- The two columns of row sums stacked: entry r is the r-th denominator, once each column's entries are the
    sums of the exponentials of one view's row against the other view. -/
theorem stacked_den (zi zj : Cert.Spec.Mat) (o0 o1 : FVec Ideal S4096x1 .f32)
    (h0 : ∀ r : Fin 4096, o0 (ix2 r 0) = Cert.Spec.cross zi zj r)
    (h1 : ∀ r : Fin 4096, o1 (ix2 r 0) = Cert.Spec.cross zj zi r) (r : Fin 8192) :
    concatenate S8192 0 [⟨S4096, shapeCast S4096 o0 shapeCasts_S4096x1_S4096⟩, ⟨S4096, shapeCast S4096 o1 shapeCasts_S4096x1_S4096⟩]
        concatenates_S4096_S4096_S8192_d0 (ix1 r)
      = Cert.Spec.den zi zj r := by
  unfold Cert.Spec.den
  by_cases h : r.val < 4096
  · rw [dif_pos h]
    refine Eq.trans ?_ ((col_apply o0 ⟨r.val, h⟩).trans (h0 ⟨r.val, h⟩))
    exact concatenate_pair_apply_left 0 _ _ concatenates_S4096_S4096_S8192_d0 (ix1 r) rfl (ix1 ⟨r.val, h⟩)
      (fun b => match b with | ⟨0, _⟩ => rfl)
  · rw [dif_neg h]
    refine Eq.trans ?_ ((col_apply o1 ⟨r.val - 4096, by omega⟩).trans (h1 ⟨r.val - 4096, by omega⟩))
    exact concatenate_pair_apply_right 0 _ _ concatenates_S4096_S4096_S8192_d0 (ix1 r) rfl rfl (ix1 ⟨r.val - 4096, by omega⟩)
      (fun b hb => match b, hb with | ⟨0, _⟩, hb => absurd rfl hb)
      (by show r.val - 4096 + 4096 = r.val; omega)

/-! ## The last valuation at the result buffer -/

/-- The result buffer after the last host stretch: the loss of the doubled positive similarities of the two
    normalised arrays and of the two regions' output columns stacked. -/
theorem V8_v27 (m : (ℓ : Loc nD τ sig) → Buf (Elt Ideal) ℓ) (c : Dev nD) :
    (Gen.V8 m (outs m) c main_v27 : S_.Idx → EReal)
      = loss (mulf (pos (Gen.V7 m (outs m) c main_v4) (Gen.V7 m (outs m) c main_v9))
                (broadcastInDim S8192 ![] bcast_S_S8192 (constant (F := Ideal) S_ .f32 0x40000000#32)))
          (concatenate S8192 0 [⟨S4096, (Gen.V7 m (outs m) c main_v11 : FVec Ideal S4096 .f32)⟩,
             ⟨S4096, shapeCast S4096 (Gen.V7 m (outs m) c main_v12 : FVec Ideal S4096x1 .f32) shapeCasts_S4096x1_S4096⟩]
            concatenates_S4096_S4096_S8192_d0) := by
  show StableHlo.after hostOps2 _ (Proc.devRef .tc main_v27) = _
  after_results
  rfl

/-! ## The buffers the last stretch reads -/

/-- Region 1's output array holds what region 1 leaves. -/
theorem V7_v12 (m : (ℓ : Loc nD τ sig) → Buf (Elt Ideal) ℓ) (c : Dev nD) :
    (Gen.V7 m (outs m) c main_v12 : FVec Ideal S4096x1 .f32) = out1 m c := by
  rw [← outs_7 m c]; simp only [Gen.V7, Function.update_self]

/-- Region 0's output array holds what region 0 leaves. -/
theorem V5_v10 (m : (ℓ : Loc nD τ sig) → Buf (Elt Ideal) ℓ) (c : Dev nD) :
    (Gen.V5 m (outs m) c main_v10 : FVec Ideal S4096x1 .f32) = out0 m c := by
  rw [← outs_5 m c]; simp only [Gen.V5, Function.update_self]

/-- The vector the one operation between the regions writes: region 0's column read as a vector. -/
theorem V7_v11 (m : (ℓ : Loc nD τ sig) → Buf (Elt Ideal) ℓ) (c : Dev nD) :
    (Gen.V7 m (outs m) c main_v11 : FVec Ideal S4096 .f32)
      = shapeCast S4096 (out0 m c : FVec Ideal S4096x1 .f32) shapeCasts_S4096x1_S4096 := by
  rw [Gen.V7_of m (outs m) c main_v11 (by decide), ← V5_v10 m c]
  show StableHlo.after hostOps1 _ (Proc.devRef .tc main_v11) = _
  after_results
  rfl

/-- Nothing after the first four stretches writes the first normalised array. -/
theorem V7_v4 (m : (ℓ : Loc nD τ sig) → Buf (Elt Ideal) ℓ) (c : Dev nD) :
    Gen.V7 m (outs m) c main_v4 = Gen.V4 m c main_v4 :=
  (Gen.V7_of m (outs m) c main_v4 (by decide)).trans
    ((Gen.V6_of m (outs m) c main_v4 (by decide)).trans (Gen.V5_of m (outs m) c main_v4 (by decide)))

/-- Nothing after the first four stretches writes the second normalised array. -/
theorem V7_v9 (m : (ℓ : Loc nD τ sig) → Buf (Elt Ideal) ℓ) (c : Dev nD) :
    Gen.V7 m (outs m) c main_v9 = Gen.V4 m c main_v9 :=
  (Gen.V7_of m (outs m) c main_v9 (by decide)).trans
    ((Gen.V6_of m (outs m) c main_v9 (by decide)).trans (Gen.V5_of m (outs m) c main_v9 (by decide)))

/-- Region 1 is entered with the first normalised array as region 0 was. -/
theorem VB_v4 (m : (ℓ : Loc nD τ sig) → Buf (Elt Ideal) ℓ) (c : Dev nD) :
    VB m c main_v4 = Gen.V4 m c main_v4 :=
  (Gen.V6_of m (outsA m) c main_v4 (by decide)).trans (Gen.V5_of m (outsA m) c main_v4 (by decide))

/-- Region 1 is entered with the second normalised array as region 0 was. -/
theorem VB_v9 (m : (ℓ : Loc nD τ sig) → Buf (Elt Ideal) ℓ) (c : Dev nD) :
    VB m c main_v9 = Gen.V4 m c main_v9 :=
  (Gen.V6_of m (outsA m) c main_v9 (by decide)).trans (Gen.V5_of m (outsA m) c main_v9 (by decide))

/-! ## The normalised arrays are the reference's -/

open Cert.ReferenceIdeal.Read in
/-- The first normalised array: the first argument divided, row by row, by the larger of its row's norm and the
    floor constant — the very operations the reference applies to its first argument. -/
theorem V4_v4 (m : (ℓ : Loc nD τ sig) → Buf (Elt Ideal) ℓ) (c : Dev nD) :
    (Gen.V4 m c main_v4 : FVec Ideal S4096x256 .f32) = val_main_v4 (F := Ideal) (m ((c : Thread nD τ).loc main_arg0)) := by
  show StableHlo.after hostOps0_3 (StableHlo.after hostOps0_2 (StableHlo.after hostOps0_1 (StableHlo.after hostOps0 _)))
    (Proc.devRef .tc main_v4) = _
  after_results
  unfold val_main_v4 val_main_v3 val_main_v2 val_main_v1 val_main_v0 val_main_cst val_main_call0_v2 val_main_call0_v1
    val_main_call0_v0 val_main_call0_cst
  rfl

open Cert.ReferenceIdeal.Read in
/-- The second normalised array, likewise of the second argument. -/
theorem V4_v9 (m : (ℓ : Loc nD τ sig) → Buf (Elt Ideal) ℓ) (c : Dev nD) :
    (Gen.V4 m c main_v9 : FVec Ideal S4096x256 .f32) = val_main_v9 (F := Ideal) (m ((c : Thread nD τ).loc main_arg1)) := by
  show StableHlo.after hostOps0_3 (StableHlo.after hostOps0_2 (StableHlo.after hostOps0_1 (StableHlo.after hostOps0 _)))
    (Proc.devRef .tc main_v9) = _
  after_results
  unfold val_main_v9 val_main_v8 val_main_v7 val_main_v6 val_main_v5 val_main_cst_0 val_main_call1_v2 val_main_call1_v1
    val_main_call1_v0 val_main_call1_cst
  rfl

/-! ## The reference's result over the same two functions -/

open Cert.ReferenceIdeal.Read in
/-- The reference's result: the loss of the positive similarities divided by one half and of its masked row sums. -/
theorem ref_v40 (x0 x1 : FVec Ideal S4096x256 .f32) :
    val_main_v40 (F := Ideal) x0 x1
      = loss (Host.divf (F := Ideal) (pos (val_main_v4 (F := Ideal) x0) (val_main_v9 (F := Ideal) x1))
                (broadcastInDim S8192 ![] bcast_S_S8192 (constant (F := Ideal) S_ .f32 0x3F000000#32)))
          (val_main_v33 (F := Ideal) x0 x1) := by
  unfold val_main_v40 val_main_v39 val_main_v38 val_main_v37 val_main_v36 val_main_v35 val_main_v34 val_main_v28 val_main_v27
    val_main_v26 val_main_v15 val_main_v14 val_main_v13 val_main_cst_9 val_main_cst_8 val_main_cst_7 val_main_cst_3 val_main_cst_1
  generalize val_main_v4 (F := Ideal) x0 = zi
  generalize val_main_v9 (F := Ideal) x1 = zj
  generalize val_main_v33 (F := Ideal) x0 x1 = d
  rfl

/-! ## The bridge -/

open Cert.ReferenceIdeal.Read in
/-- The kernel program's result buffer after the run is the reference's result term of the same arguments. -/
theorem bridge_of (m : (ℓ : Loc nD τ sig) → Buf (Elt Ideal) ℓ) (c : Dev nD)
    (h0 : ∀ r : Fin 4096, (out0 m c : S4096x1.Idx → EReal) (ix2 r 0) = Cert.Spec.cross (VA m c main_v4) (VA m c main_v9) r)
    (h1 : ∀ r : Fin 4096, (out1 m c : S4096x1.Idx → EReal) (ix2 r 0) = Cert.Spec.cross (VB m c main_v9) (VB m c main_v4) r) :
    (Gen.V8 m (outs m) c main_v27 : S_.Idx → EReal)
      = Cert.ReferenceIdeal.Read.val_main_v40 (F := Ideal) (m ((c : Thread nD τ).loc main_arg0)) (m ((c : Thread nD τ).loc main_arg1)) := by
  -- the two regions' hypotheses over the reference's two normalised arrays
  have e4 : VA m c main_v4 = val_main_v4 (F := Ideal) (m ((c : Thread nD τ).loc main_arg0)) := V4_v4 m c
  have e9 : VA m c main_v9 = val_main_v9 (F := Ideal) (m ((c : Thread nD τ).loc main_arg1)) := V4_v9 m c
  rw [e4, e9] at h0
  rw [VB_v4 m c, VB_v9 m c, V4_v4 m c, V4_v9 m c] at h1
  -- the stacked columns are the reference's masked row sums, entry by entry
  have hden : val_main_v33 (F := Ideal) (m ((c : Thread nD τ).loc main_arg0)) (m ((c : Thread nD τ).loc main_arg1))
      = concatenate S8192 0 [⟨S4096, shapeCast S4096 (out0 m c : FVec Ideal S4096x1 .f32) shapeCasts_S4096x1_S4096⟩,
          ⟨S4096, shapeCast S4096 (out1 m c : FVec Ideal S4096x1 .f32) shapeCasts_S4096x1_S4096⟩] concatenates_S4096_S4096_S8192_d0 := by
    funext i
    obtain ⟨r, rfl⟩ : ∃ r : Fin 8192, i = ix1 r := ⟨i 0, eq_ix1 i⟩
    exact (Cert.RefDen.ref_den _ _ r).trans (stacked_den _ _ _ _ h0 h1 r).symm
  rw [V8_v27, ref_v40, V7_v4, V7_v9, V4_v4, V4_v9, V7_v11, V7_v12, hden]
  -- dividing the similarities by one half is doubling them
  exact congrArg (loss · _) (Cert.RefDen.half_div _).symm

end Cert.Bridge

end
-- ==== Proof.lean ====
/-
  The certificate of a contrastive (NT-Xent) loss over two views of 4096 embeddings of 256 entries, temperature 1/2.

  The kernel program normalises the rows of both arguments on the host (z_i, z_j), computes the two families of denominators
  by two pipelined regions — region 0 the sums over q of exp (2 · ⟨z_i row p, z_j row q⟩), region 1 the same with the views
  exchanged; each region walks a 2 × 4 grid, accumulating one 1024-row tile of the second operand per point into a scratch
  column that it copies out at the end of each row of the grid — and finishes on the host: the positives ⟨z_i row p, z_j row p⟩,
  the quotient, the logarithm, the mean. The reference forms the whole 8192 × 8192 similarity matrix of the concatenated
  views, masks the two same-view blocks to zero and sums each row. On the extended reals the two agree entry by entry:
  a masked row sum is the sum over the other view (zero terms drop out of a sum, and the tiles' partial sums regroup into
  the whole sum: addition is commutative and associative there), and a quotient by 1/2 is a product by 2. Nothing in the
  argument needs the inputs to be finite.

  The frames of the two kernel programs (Proof/K, Proof/KI: the same text at the two float instances) run @main item by
  item with the scratch column's contents tracked from grid point to grid point; the reference's frame is its run with the
  result dropped. `preserves` has nothing to state: the idealisation rewrote no operation.
-/
import proofs.«139026_j64518998721097_1_alg».proof.Defs
import proofs.«139026_j64518998721097_1_alg».proof.Proof.Gen.Kernel
import proofs.«139026_j64518998721097_1_alg».proof.Proof.Gen.KernelIdeal
import proofs.«139026_j64518998721097_1_alg».proof.Proof.Gen.ReferenceIdeal
import proofs.«139026_j64518998721097_1_alg».proof.Proof.Gen.Pre_finite_inputs
import proofs.«139026_j64518998721097_1_alg».proof.Proof.Gen.ReferenceIdeal.Run
import proofs.«139026_j64518998721097_1_alg».proof.Proof.Gen.ReferenceIdeal.Read
import proofs.«139026_j64518998721097_1_alg».proof.Proof.K.Regs
import proofs.«139026_j64518998721097_1_alg».proof.Proof.KI.Regs
import proofs.«139026_j64518998721097_1_alg».proof.Proof.KValue0
import proofs.«139026_j64518998721097_1_alg».proof.Proof.KValue1
import proofs.«139026_j64518998721097_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does the idealised kernel program. -/
theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories agreeing on the arguments both idealised programs run, and the kernel program's result buffer holds the
    reference's result term of the same arguments. -/
theorem algebraic : Cert.algebraic_KernelIdeal_ReferenceIdeal := by
  intro m ρ m' ρ' _ hagree
  refine ⟨fun c => Cert.KernelIdeal.Gen.V8 m (Cert.KernelIdeal.Hand.outs m) c Cert.KernelIdeal.main_v27, ?_, ?_⟩
  · exact (θ_run Cert.KernelIdeal.defs _ _).mono (fun _ h c =>
      ⟨h c _ (Cert.KernelIdeal.Hand.mem_uc Cert.KernelIdeal.main_v27 (by decide)),
       (h c _ (Cert.KernelIdeal.Hand.mem_uc Cert.KernelIdeal.main_arg0 (by decide))).trans (Cert.KernelIdeal.Gen.V8_main_arg0 m _ c),
       (h c _ (Cert.KernelIdeal.Hand.mem_uc Cert.KernelIdeal.main_arg1 (by decide))).trans (Cert.KernelIdeal.Gen.V8_main_arg1 m _ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, (hagree c).1, (hagree c).2]
    exact (Cert.Bridge.bridge_of m c (Cert.KValue0.out_apply _ c) (Cert.KValue1.out_apply _ c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
